-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x22x512 : Shape := ⟨4, ![8, 1024, 22, 512]⟩
abbrev S8 : Shape := ⟨1, ![8]⟩
abbrev S_ : Shape := ⟨0, ![]⟩

class Facts : Prop where
  bcast_S_S8x1024x22x512 : S_.BroadcastsInDim S8x1024x22x512 (![] : Fin 0 → Fin S8x1024x22x512.rank)
  reducesTo_S8x1024x22x512_S_d0_1_2_3 : S8x1024x22x512.ReducesTo [0, 1, 2, 3] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S8x1024x22x512 .f32) (main_arg1 : IVec S8 32) : IVec S_ 1 :=
  let main_v0 : FVec F S8x1024x22x512 .f32 := Host.absf main_arg0
  let main_cst : FVec F S_ .f32 := constant S_ .f32 0x7F800000#32
  let main_v1 : FVec F S8x1024x22x512 .f32 := broadcastInDim S8x1024x22x512 ![] bcast_S_S8x1024x22x512 main_cst
  let main_v2 : IVec S8x1024x22x512 1 := cmpf .olt main_v0 main_v1
  let main_c : IVec S_ 1 := constantI S_ 1 1#1
  let main_v3 : IVec S_ 1 := (fun x v => Host.reduce IntOp.andi x v reducesTo_S8x1024x22x512_S_d0_1_2_3 h_S_) main_v2 main_c
  let main_c_0 : IVec S_ 32 := constantI S_ 32 1#32
  let main_v4 : IVec S8 32 := broadcastInDim S8 ![] bcast_S_S8 main_c_0
  let main_v5 : IVec S8 1 := cmpi .sge main_arg1 main_v4
  let main_c_1 : IVec S_ 1 := constantI S_ 1 1#1
  let main_v6 : IVec S_ 1 := (fun x v => Host.reduce IntOp.andi x v reducesTo_S8_S_d0 h_S_) main_v5 main_c_1
  let main_v7 : IVec S_ 1 := andi main_v3 main_v6
  let main_c_2 : IVec S_ 32 := constantI S_ 32 1024#32
  let main_v8 : IVec S8 32 := broadcastInDim S8 ![] bcast_S_S8 main_c_2
  let main_v9 : IVec S8 1 := cmpi .sle main_arg1 main_v8
  let main_c_3 : IVec S_ 1 := constantI S_ 1 1#1
  let main_v10 : IVec S_ 1 := (fun x v => Host.reduce IntOp.andi x v reducesTo_S8_S_d0 h_S_) main_v9 main_c_3
  let main_v11 : IVec S_ 1 := andi main_v7 main_v10
  main_v11
-- ==== Kernel.lean ====
abbrev S8x1024x22x512 : Shape := ⟨4, ![8, 1024, 22, 512]⟩
abbrev S8 : Shape := ⟨1, ![8]⟩
abbrev S8x1024x11264 : Shape := ⟨3, ![8, 1024, 11264]⟩
abbrev S_ : Shape := ⟨0, ![]⟩
abbrev S1024 : Shape := ⟨1, ![1024]⟩
abbrev S8x1 : Shape := ⟨2, ![8, 1]⟩
abbrev S1x1024 : Shape := ⟨2, ![1, 1024]⟩
abbrev S8x1024 : Shape := ⟨2, ![8, 1024]⟩
abbrev S8x1024x1 : Shape := ⟨3, ![8, 1024, 1]⟩
abbrev S1x1x1024 : Shape := ⟨3, ![1, 1, 1024]⟩
abbrev S8x1024x1024 : Shape := ⟨3, ![8, 1024, 1024]⟩
abbrev S8x22x1024x512 : Shape := ⟨4, ![8, 22, 1024, 512]⟩
abbrev S1x1024x512 : Shape := ⟨3, ![1, 1024, 512]⟩
abbrev S1x1024x1024 : Shape := ⟨3, ![1, 1024, 1024]⟩
abbrev S1x1x1024x512 : Shape := ⟨4, ![1, 1, 1024, 512]⟩
abbrev S1024x512 : Shape := ⟨2, ![1024, 512]⟩
abbrev S1024x1024 : Shape := ⟨2, ![1024, 1024]⟩

abbrev nBuf : Space → Nat
  | .hbm => 120
  | .vmem => 6
  | .smem => 0
  | _ => 0

abbrev bufTy : (tb : Table) → Fin (tcTables nBuf tb) → BufTy
  | .hbm, ⟨0, _⟩ => ⟨S8x1024x22x512, .f32⟩
  | .hbm, ⟨1, _⟩ => ⟨S8, .i32⟩
  | .hbm, ⟨2, _⟩ => ⟨S8x1024x11264, .f32⟩
  | .hbm, ⟨3, _⟩ => ⟨S_, .i32⟩
  | .hbm, ⟨4, _⟩ => ⟨S8, .i32⟩
  | .hbm, ⟨5, _⟩ => ⟨S8, .i32⟩
  | .hbm, ⟨6, _⟩ => ⟨S_, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S8, .i1⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S8, .i1⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S8, .i32⟩
  | .hbm, ⟨24, _⟩ => ⟨S1024, .i32⟩
  | .hbm, ⟨25, _⟩ => ⟨S8x1, .i32⟩
  | .hbm, ⟨26, _⟩ => ⟨S1x1024, .i32⟩
  | .hbm, ⟨27, _⟩ => ⟨S8x1024, .i32⟩
  | .hbm, ⟨28, _⟩ => ⟨S8x1024, .i32⟩
  | .hbm, ⟨29, _⟩ => ⟨S8x1024, .i32⟩
  | .hbm, ⟨30, _⟩ => ⟨S1x1024, .i32⟩
  | .hbm, ⟨31, _⟩ => ⟨S8x1, .i32⟩
  | .hbm, ⟨32, _⟩ => ⟨S8x1024, .i32⟩
  | .hbm, ⟨33, _⟩ => ⟨S8x1024, .i32⟩
  | .hbm, ⟨34, _⟩ => ⟨S8x1024, .i1⟩
  | .hbm, ⟨35, _⟩ => ⟨S8x1024, .i32⟩
  | .hbm, ⟨36, _⟩ => ⟨S8x1024, .i32⟩
  | .hbm, ⟨37, _⟩ => ⟨S8x1024, .i32⟩
  | .hbm, ⟨38, _⟩ => ⟨S_, .i32⟩
  | .hbm, ⟨39, _⟩ => ⟨S8x1024, .i32⟩
  | .hbm, ⟨40, _⟩ => ⟨S8x1024, .i1⟩
  | .hbm, ⟨41, _⟩ => ⟨S8x1024, .i1⟩
  | .hbm, ⟨42, _⟩ => ⟨S_, .i32⟩
  | .hbm, ⟨43, _⟩ => ⟨S8x1024, .i32⟩
  | .hbm, ⟨44, _⟩ => ⟨S8x1024, .i32⟩
  | .hbm, ⟨45, _⟩ => ⟨S8x1024, .i32⟩
  | .hbm, ⟨46, _⟩ => ⟨S1x1024, .i32⟩
  | .hbm, ⟨47, _⟩ => ⟨S_, .i32⟩
  | .hbm, ⟨48, _⟩ => ⟨S8x1, .i32⟩
  | .hbm, ⟨49, _⟩ => ⟨S8x1, .i1⟩
  | .hbm, ⟨50, _⟩ => ⟨S_, .i32⟩
  | .hbm, ⟨51, _⟩ => ⟨S8x1, .i32⟩
  | .hbm, ⟨52, _⟩ => ⟨S8x1, .i32⟩
  | .hbm, ⟨53, _⟩ => ⟨S8x1024, .i32⟩
  | .hbm, ⟨54, _⟩ => ⟨S8x1024, .i32⟩
  | .hbm, ⟨55, _⟩ => ⟨S8x1024, .i32⟩
  | .hbm, ⟨56, _⟩ => ⟨S_, .i32⟩
  | .hbm, ⟨57, _⟩ => ⟨S8x1024, .i32⟩
  | .hbm, ⟨58, _⟩ => ⟨S8x1024, .i1⟩
  | .hbm, ⟨59, _⟩ => ⟨S_, .i32⟩
  | .hbm, ⟨60, _⟩ => ⟨S8x1024, .i32⟩
  | .hbm, ⟨61, _⟩ => ⟨S8x1024, .i1⟩
  | .hbm, ⟨62, _⟩ => ⟨S_, .i32⟩
  | .hbm, ⟨63, _⟩ => ⟨S8x1, .i32⟩
  | .hbm, ⟨64, _⟩ => ⟨S8x1, .i1⟩
  | .hbm, ⟨65, _⟩ => ⟨S8x1024, .i1⟩
  | .hbm, ⟨66, _⟩ => ⟨S8x1024, .i1⟩
  | .hbm, ⟨67, _⟩ => ⟨S8x1024, .i1⟩
  | .hbm, ⟨68, _⟩ => ⟨S8x1024, .i32⟩
  | .hbm, ⟨69, _⟩ => ⟨S8x1024, .i32⟩
  | .hbm, ⟨70, _⟩ => ⟨S8x1024, .i32⟩
  | .hbm, ⟨71, _⟩ => ⟨S8x1024, .f32⟩
  | .hbm, ⟨72, _⟩ => ⟨S8x1, .f32⟩
  | .hbm, ⟨73, _⟩ => ⟨S8x1024, .f32⟩
  | .hbm, ⟨74, _⟩ => ⟨S8x1024, .f32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S8x1024, .i32⟩
  | .hbm, ⟨79, _⟩ => ⟨S8x1024, .i32⟩
  | .hbm, ⟨80, _⟩ => ⟨S_, .i32⟩
  | .hbm, ⟨81, _⟩ => ⟨S8x1024, .i32⟩
  | .hbm, ⟨82, _⟩ => ⟨S8x1024, .i32⟩
  | .hbm, ⟨83, _⟩ => ⟨S8x1, .i32⟩
  | .hbm, ⟨84, _⟩ => ⟨S_, .i32⟩
  | .hbm, ⟨85, _⟩ => ⟨S8x1, .i32⟩
  | .hbm, ⟨86, _⟩ => ⟨S8x1, .i32⟩
  | .hbm, ⟨87, _⟩ => ⟨S8x1024, .i32⟩
  | .hbm, ⟨88, _⟩ => ⟨S8x1024, .i1⟩
  | .hbm, ⟨89, _⟩ => ⟨S8x1024, .f32⟩
  | .hbm, ⟨90, _⟩ => ⟨S1024, .i32⟩
  | .hbm, ⟨91, _⟩ => ⟨S8x1024x1, .i32⟩
  | .hbm, ⟨92, _⟩ => ⟨S1x1x1024, .i32⟩
  | .hbm, ⟨93, _⟩ => ⟨S8x1024x1024, .i32⟩
  | .hbm, ⟨94, _⟩ => ⟨S8x1024x1024, .i32⟩
  | .hbm, ⟨95, _⟩ => ⟨S8x1024x1024, .i1⟩
  | .hbm, ⟨96, _⟩ => ⟨S8x1024x1024, .f32⟩
  | .hbm, ⟨97, _⟩ => ⟨S8x1024x1, .i32⟩
  | .hbm, ⟨98, _⟩ => ⟨S_, .i32⟩
  | .hbm, ⟨99, _⟩ => ⟨S8x1024x1, .i32⟩
  | .hbm, ⟨100, _⟩ => ⟨S8x1024x1, .i32⟩
  | .hbm, ⟨101, _⟩ => ⟨S1x1x1024, .i32⟩
  | .hbm, ⟨102, _⟩ => ⟨S8x1024x1024, .i32⟩
  | .hbm, ⟨103, _⟩ => ⟨S8x1024x1024, .i32⟩
  | .hbm, ⟨104, _⟩ => ⟨S8x1024x1024, .i1⟩
  | .hbm, ⟨105, _⟩ => ⟨S8x1024x1024, .f32⟩
  | .hbm, ⟨106, _⟩ => ⟨S_, .f32⟩
  | .hbm, ⟨107, _⟩ => ⟨S8x1024, .f32⟩
  | .hbm, ⟨108, _⟩ => ⟨S8x1024, .f32⟩
  | .hbm, ⟨109, _⟩ => ⟨S8x1024, .f32⟩
  | .hbm, ⟨110, _⟩ => ⟨S8x1024x1, .f32⟩
  | .hbm, ⟨111, _⟩ => ⟨S8x1024x1024, .f32⟩
  | .hbm, ⟨112, _⟩ => ⟨S8x1024x1024, .f32⟩
  | .hbm, ⟨113, _⟩ => ⟨S8x1024, .f32⟩
  | .hbm, ⟨114, _⟩ => ⟨S8x1024x1, .f32⟩
  | .hbm, ⟨115, _⟩ => ⟨S8x1024x1024, .f32⟩
  | .hbm, ⟨116, _⟩ => ⟨S8x1024x1024, .f32⟩
  | .hbm, ⟨117, _⟩ => ⟨S8x1024x1024, .f32⟩
  | .hbm, ⟨118, _⟩ => ⟨S8x1024x1024, .bf16⟩
  | .hbm, ⟨119, _⟩ => ⟨S8x22x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024x512, .f32⟩
  | .local _ .vmem, ⟨5, _⟩ => ⟨S1x1x1024x512, .f32⟩
  | _, _ => ⟨S8x1024x22x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_c : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_c_0 : Ref sig .tc := ⟨.hbm, 42, rfl⟩
abbrev main_call1_v14 : Ref sig .tc := ⟨.hbm, 43, rfl⟩
abbrev main_call1_v15 : Ref sig .tc := ⟨.hbm, 44, rfl⟩
abbrev main_v7 : Ref sig .tc := ⟨.hbm, 45, rfl⟩
abbrev main_v8 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_c_1 : Ref sig .tc := ⟨.hbm, 56, rfl⟩
abbrev main_call2_v7 : Ref sig .tc := ⟨.hbm, 57, rfl⟩
abbrev main_call2_v8 : Ref sig .tc := ⟨.hbm, 58, rfl⟩
abbrev main_call2_c_2 : Ref sig .tc := ⟨.hbm, 59, rfl⟩
abbrev main_call2_v9 : Ref sig .tc := ⟨.hbm, 60, rfl⟩
abbrev main_call2_v10 : Ref sig .tc := ⟨.hbm, 61, rfl⟩
abbrev main_call2_c_3 : Ref sig .tc := ⟨.hbm, 62, rfl⟩
abbrev main_call2_v11 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_call2_v15 : Ref sig .tc := ⟨.hbm, 67, rfl⟩
abbrev main_call2_v16 : Ref sig .tc := ⟨.hbm, 68, rfl⟩
abbrev main_call2_v17 : Ref sig .tc := ⟨.hbm, 69, rfl⟩
abbrev main_v9 : Ref sig .tc := ⟨.hbm, 70, rfl⟩
abbrev main_v10 : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_c_1 : Ref sig .tc := ⟨.hbm, 75, rfl⟩
abbrev main_c_2 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_v14 : Ref sig .tc := ⟨.hbm, 82, rfl⟩
abbrev main_v15 : Ref sig .tc := ⟨.hbm, 83, rfl⟩
abbrev main_c_3 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_c_4 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_cst : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 22], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8x1024x22x512_S8x1024x11264 : S8x1024x22x512.ShapeCasts S8x1024x11264
  bcast_S_S8 : S_.BroadcastsInDim S8 (![] : Fin 0 → Fin S8.rank)
  bcast_S8_S8x1_0 : S8.BroadcastsInDim S8x1 (![0] : Fin 1 → Fin S8x1.rank)
  bcast_S1024_S1x1024_1 : S1024.BroadcastsInDim S1x1024 (![1] : Fin 1 → Fin S1x1024.rank)
  bcast_S1x1024_S8x1024_0_1 : S1x1024.BroadcastsInDim S8x1024 (![0, 1] : Fin 2 → Fin S8x1024.rank)
  bcast_S8x1_S8x1024_0_1 : S8x1.BroadcastsInDim S8x1024 (![0, 1] : Fin 2 → Fin S8x1024.rank)
  bcast_S_S8x1024 : S_.BroadcastsInDim S8x1024 (![] : Fin 0 → Fin S8x1024.rank)
  bcast_S_S8x1 : S_.BroadcastsInDim S8x1 (![] : Fin 0 → Fin S8x1.rank)
  bcast_S8x1024_S8x1024x1_0_1 : S8x1024.BroadcastsInDim S8x1024x1 (![0, 1] : Fin 2 → Fin S8x1024x1.rank)
  bcast_S1024_S1x1x1024_2 : S1024.BroadcastsInDim S1x1x1024 (![2] : Fin 1 → Fin S1x1x1024.rank)
  bcast_S8x1024x1_S8x1024x1024_0_1_2 : S8x1024x1.BroadcastsInDim S8x1024x1024 (![0, 1, 2] : Fin 3 → Fin S8x1024x1024.rank)
  bcast_S1x1x1024_S8x1024x1024_0_1_2 : S1x1x1024.BroadcastsInDim S8x1024x1024 (![0, 1, 2] : Fin 3 → Fin S8x1024x1024.rank)
  bcast_S_S8x1024x1 : S_.BroadcastsInDim S8x1024x1 (![] : Fin 0 → Fin S8x1024x1.rank)
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024x512_S1x1x1024x512_0_0_0_0 : ∀ a, (![0, 0, 0, 0] : Fin 4 → Nat) a + S1x1x1024x512.size a ≤ S1x1x1024x512.size a
  h_S1x1x1024x512 : 0 < S1x1x1024x512.numel
  shapeCasts_S1x1x1024x512_S1024x512 : S1x1x1024x512.ShapeCasts S1024x512
  shapeCasts_S1024x512_S1x1x1024x512 : S1024x512.ShapeCasts S1x1x1024x512
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x1024x11264.size a
  hwx0_0 : ∀ i : grid0.Coords, EltTy.bits .f32 = 32 ∨ (Rect.block (s := S8x1024x11264) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x1024.size a
  hwx0_1 : ∀ i : grid0.Coords, EltTy.bits .bf16 = 32 ∨ (Rect.block (s := S8x1024x1024) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x512.size a ≤ S8x22x1024x512.size a
  hwx0_2 : ∀ i : grid0.Coords, EltTy.bits .f32 = 32 ∨ (Rect.block (s := S8x22x1024x512) S1x1x1024x512.size (cc0_transform_2 i) (hinb0_2 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S1x1x1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x1024x22x512 : Shape := ⟨4, ![8, 1024, 22, 512]⟩
abbrev S8 : Shape := ⟨1, ![8]⟩
abbrev S1024 : Shape := ⟨1, ![1024]⟩
abbrev S8x22x1024x512 : Shape := ⟨4, ![8, 22, 1024, 512]⟩
abbrev S_ : Shape := ⟨0, ![]⟩
abbrev S1x1024 : Shape := ⟨2, ![1, 1024]⟩
abbrev S8x1 : Shape := ⟨2, ![8, 1]⟩
abbrev S8x1024 : Shape := ⟨2, ![8, 1024]⟩
abbrev S8x1024x1 : Shape := ⟨3, ![8, 1024, 1]⟩
abbrev S8x1x1024x1 : Shape := ⟨4, ![8, 1, 1024, 1]⟩
abbrev S8x1024x512 : Shape := ⟨3, ![8, 1024, 512]⟩
abbrev S1024x512 : Shape := ⟨2, ![1024, 512]⟩
abbrev S22x1024x512 : Shape := ⟨3, ![22, 1024, 512]⟩

abbrev nBuf : Space → Nat
  | .hbm => 129
  | .vmem => 0
  | .smem => 0
  | _ => 0

abbrev hbmTy0_0 (i : Nat) : BufTy := match i % 128 with
  | 0 => ⟨S8x1024x22x512, .f32⟩
  | 1 => ⟨S8, .i32⟩
  | 2 => ⟨S1024, .i32⟩
  | 3 => ⟨S8x22x1024x512, .f32⟩
  | 4 => ⟨S_, .i32⟩
  | 5 => ⟨S_, .i32⟩
  | 6 => ⟨S8, .i32⟩
  | 7 => ⟨S8, .i32⟩
  | 8 => ⟨S_, .i32⟩
  | 9 => ⟨S8, .i32⟩
  | 10 => ⟨S8, .i32⟩
  | 11 => ⟨S8, .i1⟩
  | 12 => ⟨S8, .i32⟩
  | 13 => ⟨S8, .i32⟩
  | 14 => ⟨S_, .i32⟩
  | 15 => ⟨S8, .i32⟩
  | 16 => ⟨S8, .i1⟩
  | 17 => ⟨S8, .i1⟩
  | 18 => ⟨S_, .i32⟩
  | 19 => ⟨S8, .i32⟩
  | 20 => ⟨S8, .i32⟩
  | 21 => ⟨S8, .i32⟩
  | 22 => ⟨S1x1024, .i32⟩
  | 23 => ⟨S8x1, .i32⟩
  | 24 => ⟨S8x1024, .i32⟩
  | 25 => ⟨S8x1024, .i32⟩
  | 26 => ⟨S8x1024, .i32⟩
  | 27 => ⟨S1024, .i32⟩
  | 28 => ⟨S8, .i32⟩
  | 29 => ⟨S1x1024, .i32⟩
  | 30 => ⟨S8x1, .i32⟩
  | 31 => ⟨S8x1024, .i32⟩
  | 32 => ⟨S8x1024, .i32⟩
  | 33 => ⟨S8x1024, .i1⟩
  | 34 => ⟨S1x1024, .i32⟩
  | 35 => ⟨S8x1, .i32⟩
  | 36 => ⟨S8x1024, .i32⟩
  | 37 => ⟨S8x1024, .i32⟩
  | 38 => ⟨S8x1024, .i32⟩
  | 39 => ⟨S_, .i32⟩
  | 40 => ⟨S8x1024, .i32⟩
  | 41 => ⟨S8x1024, .i1⟩
  | 42 => ⟨S8x1024, .i1⟩
  | 43 => ⟨S_, .i32⟩
  | 44 => ⟨S8x1024, .i32⟩
  | 45 => ⟨S8x1024, .i32⟩
  | 46 => ⟨S8x1024, .i32⟩
  | 47 => ⟨S_, .i32⟩
  | 48 => ⟨S8, .i32⟩
  | 49 => ⟨S8, .i1⟩
  | 50 => ⟨S_, .i32⟩
  | 51 => ⟨S8, .i32⟩
  | 52 => ⟨S8, .i32⟩
  | 53 => ⟨S1x1024, .i32⟩
  | 54 => ⟨S8x1, .i32⟩
  | 55 => ⟨S8x1024, .i32⟩
  | 56 => ⟨S8x1024, .i32⟩
  | 57 => ⟨S8x1024, .i32⟩
  | 58 => ⟨S_, .i32⟩
  | 59 => ⟨S8x1024, .i32⟩
  | 60 => ⟨S8x1024, .i1⟩
  | 61 => ⟨S_, .i32⟩
  | 62 => ⟨S8x1024, .i32⟩
  | 63 => ⟨S8x1024, .i1⟩
  | 64 => ⟨S_, .i32⟩
  | 65 => ⟨S8, .i32⟩
  | 66 => ⟨S8, .i1⟩
  | 67 => ⟨S8x1, .i1⟩
  | 68 => ⟨S8x1024, .i1⟩
  | 69 => ⟨S8x1024, .i1⟩
  | 70 => ⟨S8x1024, .i1⟩
  | 71 => ⟨S8x1, .i32⟩
  | 72 => ⟨S8x1024, .i32⟩
  | 73 => ⟨S8x1024, .i32⟩
  | 74 => ⟨S8x1024, .i32⟩
  | 75 => ⟨S8x1024, .f32⟩
  | 76 => ⟨S8, .f32⟩
  | 77 => ⟨S8x1, .f32⟩
  | 78 => ⟨S8x1024, .f32⟩
  | 79 => ⟨S8x1024, .f32⟩
  | 80 => ⟨S8x1024x1, .f32⟩
  | 81 => ⟨S_, .i32⟩
  | 82 => ⟨S_, .i32⟩
  | 83 => ⟨S_, .i32⟩
  | 84 => ⟨S8x1024, .i32⟩
  | 85 => ⟨S8x1024, .i32⟩
  | 86 => ⟨S_, .i32⟩
  | 87 => ⟨S8x1024, .i32⟩
  | 88 => ⟨S8x1024, .i32⟩
  | 89 => ⟨S_, .i32⟩
  | 90 => ⟨S8x1024, .i32⟩
  | 91 => ⟨S8x1024, .i1⟩
  | 92 => ⟨S_, .i32⟩
  | 93 => ⟨S8x1024, .i32⟩
  | 94 => ⟨S8x1024, .i32⟩
  | 95 => ⟨S8x1024, .i32⟩
  | 96 => ⟨S8x1024x1, .i32⟩
  | 97 => ⟨S8x22x1024x512, .f32⟩
  | 98 => ⟨S_, .i32⟩
  | 99 => ⟨S8x1024, .i32⟩
  | 100 => ⟨S8x1024, .i32⟩
  | 101 => ⟨S_, .i32⟩
  | 102 => ⟨S8x1024, .i32⟩
  | 103 => ⟨S8x1024, .i1⟩
  | 104 => ⟨S_, .i32⟩
  | 105 => ⟨S8x1024, .i32⟩
  | 106 => ⟨S8x1024, .i32⟩
  | 107 => ⟨S8x1024, .i32⟩
  | 108 => ⟨S8x1024x1, .i32⟩
  | 109 => ⟨S8x22x1024x512, .f32⟩
  | 110 => ⟨S8x22x1024x512, .f32⟩
  | 111 => ⟨S8x1x1024x1, .f32⟩
  | 112 => ⟨S8x22x1024x512, .f32⟩
  | 113 => ⟨S8x22x1024x512, .f32⟩
  | 114 => ⟨S8x22x1024x512, .f32⟩
  | 115 => ⟨S_, .i32⟩
  | 116 => ⟨S8, .i32⟩
  | 117 => ⟨S8, .i32⟩
  | 118 => ⟨S8x1, .i32⟩
  | 119 => ⟨S8x1024, .i32⟩
  | 120 => ⟨S8x1024, .i1⟩
  | 121 => ⟨S8x1024x1, .i1⟩
  | 122 => ⟨S_, .f32⟩
  | 123 => ⟨S8x1024x512, .i1⟩
  | 124 => ⟨S1024x512, .f32⟩
  | 125 => ⟨S8x22x1024x512, .i1⟩
  | 126 => ⟨S22x1024x512, .f32⟩
  | 127 => ⟨S8x22x1024x512, .f32⟩
  | _ => ⟨S8x1024x22x512, .f32⟩

abbrev hbmTy0_1 (i : Nat) : BufTy := match i % 128 with
  | 0 => ⟨S8x22x1024x512, .f32⟩
  | _ => ⟨S8x1024x22x512, .f32⟩

abbrev hbmTy (i : Nat) : BufTy := match i / 128 with
  | 0 => hbmTy0_0 i
  | 1 => hbmTy0_1 i
  | _ => ⟨S8x1024x22x512, .f32⟩

abbrev bufTy : (tb : Table) → Fin (tcTables nBuf tb) → BufTy
  | .hbm, ⟨i, _⟩ => hbmTy i
  | _, _ => ⟨S8x1024x22x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_v12 : Ref sig .tc := ⟨.hbm, 34, rfl⟩
abbrev main_call1_v13 : Ref sig .tc := ⟨.hbm, 35, rfl⟩
abbrev main_call1_v14 : Ref sig .tc := ⟨.hbm, 36, rfl⟩
abbrev main_call1_v15 : Ref sig .tc := ⟨.hbm, 37, rfl⟩
abbrev main_call1_v16 : Ref sig .tc := ⟨.hbm, 38, rfl⟩
abbrev main_call1_c : Ref sig .tc := ⟨.hbm, 39, rfl⟩
abbrev main_call1_v17 : Ref sig .tc := ⟨.hbm, 40, rfl⟩
abbrev main_call1_v18 : Ref sig .tc := ⟨.hbm, 41, rfl⟩
abbrev main_call1_v19 : Ref sig .tc := ⟨.hbm, 42, rfl⟩
abbrev main_call1_c_0 : Ref sig .tc := ⟨.hbm, 43, rfl⟩
abbrev main_call1_v20 : Ref sig .tc := ⟨.hbm, 44, rfl⟩
abbrev main_call1_v21 : Ref sig .tc := ⟨.hbm, 45, rfl⟩
abbrev main_v3 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_call0_v0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_c_1 : Ref sig .tc := ⟨.hbm, 58, rfl⟩
abbrev main_call2_v8 : Ref sig .tc := ⟨.hbm, 59, rfl⟩
abbrev main_call2_v9 : Ref sig .tc := ⟨.hbm, 60, rfl⟩
abbrev main_call2_c_2 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_call2_v15 : Ref sig .tc := ⟨.hbm, 68, rfl⟩
abbrev main_call2_v16 : Ref sig .tc := ⟨.hbm, 69, rfl⟩
abbrev main_call2_v17 : Ref sig .tc := ⟨.hbm, 70, rfl⟩
abbrev main_call2_v18 : Ref sig .tc := ⟨.hbm, 71, rfl⟩
abbrev main_call2_v19 : Ref sig .tc := ⟨.hbm, 72, rfl⟩
abbrev main_call2_v20 : Ref sig .tc := ⟨.hbm, 73, rfl⟩
abbrev main_v4 : Ref sig .tc := ⟨.hbm, 74, rfl⟩
abbrev main_v5 : Ref sig .tc := ⟨.hbm, 75, rfl⟩
abbrev main_v6 : Ref sig .tc := ⟨.hbm, 76, rfl⟩
abbrev main_v7 : Ref sig .tc := ⟨.hbm, 77, rfl⟩
abbrev main_v8 : Ref sig .tc := ⟨.hbm, 78, rfl⟩
abbrev main_v9 : Ref sig .tc := ⟨.hbm, 79, rfl⟩
abbrev main_v10 : Ref sig .tc := ⟨.hbm, 80, rfl⟩
abbrev main_c_0 : Ref sig .tc := ⟨.hbm, 81, rfl⟩
abbrev main_c_1 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_v11 : Ref sig .tc := ⟨.hbm, 88, rfl⟩
abbrev main_c_2 : Ref sig .tc := ⟨.hbm, 89, rfl⟩
abbrev main_v12 : Ref sig .tc := ⟨.hbm, 90, rfl⟩
abbrev main_v13 : Ref sig .tc := ⟨.hbm, 91, rfl⟩
abbrev main_c_3 : Ref sig .tc := ⟨.hbm, 92, rfl⟩
abbrev main_v14 : Ref sig .tc := ⟨.hbm, 93, rfl⟩
abbrev main_v15 : Ref sig .tc := ⟨.hbm, 94, rfl⟩
abbrev main_v16 : Ref sig .tc := ⟨.hbm, 95, rfl⟩
abbrev main_v17 : Ref sig .tc := ⟨.hbm, 96, rfl⟩
abbrev main_v18 : Ref sig .tc := ⟨.hbm, 97, rfl⟩
abbrev main_c_4 : Ref sig .tc := ⟨.hbm, 98, rfl⟩
abbrev main_v19 : Ref sig .tc := ⟨.hbm, 99, rfl⟩
abbrev main_v20 : Ref sig .tc := ⟨.hbm, 100, rfl⟩
abbrev main_c_5 : Ref sig .tc := ⟨.hbm, 101, rfl⟩
abbrev main_v21 : Ref sig .tc := ⟨.hbm, 102, rfl⟩
abbrev main_v22 : Ref sig .tc := ⟨.hbm, 103, rfl⟩
abbrev main_c_6 : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_v26 : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_v30 : Ref sig .tc := ⟨.hbm, 112, rfl⟩
abbrev main_v31 : Ref sig .tc := ⟨.hbm, 113, rfl⟩
abbrev main_v32 : Ref sig .tc := ⟨.hbm, 114, rfl⟩
abbrev main_c_7 : Ref sig .tc := ⟨.hbm, 115, rfl⟩
abbrev main_v33 : Ref sig .tc := ⟨.hbm, 116, rfl⟩
abbrev main_v34 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩
abbrev main_cst : Ref sig .tc := ⟨.hbm, 122, rfl⟩
abbrev main_call4_v0 : Ref sig .tc := ⟨.hbm, 123, rfl⟩
abbrev main_call4_v1 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_v39 : Ref sig .tc := ⟨.hbm, 128, rfl⟩

abbrev nD : Nat := 1
abbrev τ : Topo := Topo.v7x

variable {F : FTy → Type} [FloatOps F]

class Facts₀ : Prop where
  transposes_S8x1024x22x512_S8x22x1024x512_0_2_1_3 : S8x1024x22x512.Transposes [0, 2, 1, 3] S8x22x1024x512
  bcast_S_S8 : S_.BroadcastsInDim S8 (![] : Fin 0 → Fin S8.rank)
  bcast_S1024_S1x1024_1 : S1024.BroadcastsInDim S1x1024 (![1] : Fin 1 → Fin S1x1024.rank)
  bcast_S8_S8x1_0 : S8.BroadcastsInDim S8x1 (![0] : Fin 1 → Fin S8x1.rank)
  bcast_S1x1024_S8x1024_0_1 : S1x1024.BroadcastsInDim S8x1024 (![0, 1] : Fin 2 → Fin S8x1024.rank)
  bcast_S8x1_S8x1024_0_1 : S8x1.BroadcastsInDim S8x1024 (![0, 1] : Fin 2 → Fin S8x1024.rank)
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1x1024x1_0_2_3 : S8x1024x1.BroadcastsInDim S8x1x1024x1 (![0, 2, 3] : Fin 3 → Fin S8x1x1024x1.rank)
  bcast_S8x1x1024x1_S8x22x1024x512_0_1_2_3 : S8x1x1024x1.BroadcastsInDim S8x22x1024x512 (![0, 1, 2, 3] : Fin 4 → Fin S8x22x1024x512.rank)
  bcast_S8x1024x1_S8x1024x512_0_1_2 : S8x1024x1.BroadcastsInDim S8x1024x512 (![0, 1, 2] : Fin 3 → Fin S8x1024x512.rank)
  bcast_S_S1024x512 : S_.BroadcastsInDim S1024x512 (![] : Fin 0 → Fin S1024x512.rank)
  bcast_S8x1024x512_S8x22x1024x512_0_2_3 : S8x1024x512.BroadcastsInDim S8x22x1024x512 (![0, 2, 3] : Fin 3 → Fin S8x22x1024x512.rank)
  bcast_S1024x512_S22x1024x512_1_2 : S1024x512.BroadcastsInDim S22x1024x512 (![1, 2] : Fin 2 → Fin S22x1024x512.rank)
  bcast_S22x1024x512_S8x22x1024x512_1_2_3 : S22x1024x512.BroadcastsInDim S8x22x1024x512 (![1, 2, 3] : Fin 3 → Fin S8x22x1024x512.rank)
  gather_S8x22x1024x512_S8x1024x1_S8x22x1024x512_13_2_0_0_2_2_1221512_wf : GatherDims.WF S8x22x1024x512 S8x1024x1 S8x22x1024x512 [1, 3] [2] [0] [2] [0] 2 ![1, 22, 1, 512]

variable [Facts₀]

def gather_S8x22x1024x512_S8x1024x1_S8x22x1024x512_13_2_0_0_2_2_1221512 : GatherDims S8x22x1024x512 S8x1024x1 S8x22x1024x512 where
  offsetDims := [1, 3]
  collapsedSliceDims := [2]
  operandBatchingDims := [0]
  startIndicesBatchingDims := [0]
  startIndexMap := [2]
  indexVectorDim := 2
  sliceSizes := ![1, 22, 1, 512]
  wf := gather_S8x22x1024x512_S8x1024x1_S8x22x1024x512_13_2_0_0_2_2_1221512_wf

class Facts : Prop extends Facts₀ where

variable [Facts]
-- ==== Proof.Spec.lean ====
/-
  The mathematics of the certificate, stated once over scalar words and extended reals, with no program in sight.

  A sequence of true length L inside a buffer of T = 1024 rows is stretched to T rows by linear interpolation with the integer
  stride  step = T div L :  output row t reads the two source rows  i = t div step  and  i + 1  and blends them with the ratio
  (t mod step) / step;  rows whose source index i reaches L - 1 are zero.  The source row is clipped into [0, T - 2] before it is
  read, so both rows always exist.

  One side spells the blend as a weighted sum over ALL source rows s, the weight of row s being
      [s = i_c] * ((1 - ratio) * live) + [s = i_c + 1] * (ratio * live),
  the other as  a + ratio * (b - a)  of the two rows read directly, replaced by zero where the row is not live.  All integer
  quantities are 32-bit words and follow the two's-complement floor division and remainder that the array library spells out of
  a truncated quotient and remainder; they are the same words on both sides, so they are named here once.
-/
import Idealize.ShloMosaic.PureOps.Ideal
import Idealize.ShloMosaic.Lib.ValueIdx

noncomputable section

namespace Cert.Interp

open Idealize.ShloMosaic Idealize.ShloMosaic.ValueIdx

/-! ## Integer words -/

/-- The sign of a 32-bit word as a word: 0, -1 or 1. -/
def sgnW (x : BitVec 32) : BitVec 32 := if x = 0 then 0 else if x.msb then -1 else 1

/-- Floor division of words: the truncated quotient, less one where the operands' signs differ and the truncated remainder is
    not zero. -/
def fdivW (x y : BitVec 32) : BitVec 32 :=
  Scalar.select (IntOp.andi (IntOp.cmpi .ne (sgnW x) (sgnW y)) (IntOp.cmpi .ne (IntOp.remsi .host x y) 0#32))
    (IntOp.subi (IntOp.divsi .host x y) 1#32) (IntOp.divsi .host x y)

/-- The divisor a remainder is taken by: one in place of zero. -/
def safeW (y : BitVec 32) : BitVec 32 := Scalar.select (IntOp.cmpi .eq y 0#32) 1#32 y

/-- The remainder with the divisor's sign: the truncated remainder by the safe divisor, plus that divisor where the remainder is
    not zero and its sign differs from the divisor's. -/
def fmodW (x y : BitVec 32) : BitVec 32 :=
  Scalar.select
    (IntOp.andi (IntOp.cmpi .ne (IntOp.cmpi .slt (IntOp.remsi .host x (safeW y)) 0#32) (IntOp.cmpi .slt (safeW y) 0#32))
      (IntOp.cmpi .ne (IntOp.remsi .host x (safeW y)) 0#32))
    (IntOp.addi (IntOp.remsi .host x (safeW y)) (safeW y)) (IntOp.remsi .host x (safeW y))

/-- The stride of a sequence of length word `L` in 1024 rows. -/
def stepW (L : BitVec 32) : BitVec 32 := fdivW 1024#32 L
/-- The source row of output row `t`. -/
def srcW (L t : BitVec 32) : BitVec 32 := fdivW t (stepW L)
/-- The position of output row `t` inside its stride. -/
def subW (L t : BitVec 32) : BitVec 32 := fmodW t (stepW L)
/-- The source row clipped into [0, 1022]. -/
def rowW (L t : BitVec 32) : BitVec 32 := IntOp.minsi 1022#32 (IntOp.maxsi 0#32 (srcW L t))
/-- Whether output row `t` is live: its source row is below L - 1. -/
def liveW (L t : BitVec 32) : BitVec 1 := IntOp.cmpi .slt (srcW L t) (IntOp.subi L 1#32)

/-! ## Extended reals -/

/-- The blend ratio of output row `t`: its position inside the stride over the stride. -/
def ratioE (L t : BitVec 32) : EReal := Ideal.div (((subW L t).toInt : ℝ) : EReal) (((stepW L).toInt : ℝ) : EReal)

/-- A bit as an extended real. -/
def bitE (b : BitVec 1) : EReal := ((b.toNat : ℝ) : EReal)

/-- The float literal one. -/
def oneE : EReal := Ideal.ofBits .f32 0x3F800000#32
/-- The float literal zero. -/
def zeroE : EReal := Ideal.ofBits .f32 0x00000000#32

/-- The weight of source row `s` in output row `t` of a sequence of length word `L`. -/
def weightE (L t s : BitVec 32) : EReal :=
  bitE (IntOp.cmpi .eq (rowW L t) s) * ((oneE - ratioE L t) * bitE (liveW L t))
    + bitE (IntOp.cmpi .eq (IntOp.addi (rowW L t) 1#32) s) * (ratioE L t * bitE (liveW L t))

/-! ## Arrays -/

abbrev SKey : Shape := ⟨4, ![8, 1024, 22, 512]⟩
abbrev SLen : Shape := ⟨1, ![8]⟩
abbrev SOut : Shape := ⟨4, ![8, 22, 1024, 512]⟩
abbrev SFlat : Shape := ⟨3, ![8, 1024, 11264]⟩
abbrev SWt : Shape := ⟨3, ![8, 1024, 1024]⟩

/-- A coordinate as a 32-bit word. -/
def wd {n : Nat} (a : Fin n) : BitVec 32 := BitVec.ofNat 32 a.val

/-- The row a word names among 1024 (the word itself when it is below 1024). -/
def rowOf (w : BitVec 32) : Fin 1024 := ⟨w.toNat % 1024, Nat.mod_lt _ (by decide)⟩

/-- Column `c` of vertex `v` in the flattened (vertex, channel) axis. -/
def colOf (v : Fin 22) (c : Fin 512) : Fin 11264 := ⟨v.val * 512 + c.val, by have := v.isLt; have := c.isLt; omega⟩

/-- A product of a weight array with a flattened key array, one entry: batch `b`, vertex `v`, row `t`, channel `c`. -/
def matAt (x : SFlat.Idx → EReal) (w : SWt.Idx → EReal) (b : Fin 8) (v : Fin 22) (t : Fin 1024) (c : Fin 512) : EReal :=
  ∑ s : Fin 1024, w (ix3 b t s) * x (ix3 b s (colOf v c))

/-- The weighted-sum side at one entry, the length clamped below by one. -/
def sumAt (key : SKey.Idx → EReal) (L : SLen.Idx → BitVec 32) (b : Fin 8) (v : Fin 22) (t : Fin 1024) (c : Fin 512) : EReal :=
  ∑ s : Fin 1024, weightE (IntOp.maxsi (L (ix1 b)) 1#32) (wd t) (wd s) * key (ix4 b s v c)

/-- The two-row side at one entry. -/
def blendAt (key : SKey.Idx → EReal) (L : SLen.Idx → BitVec 32) (b : Fin 8) (v : Fin 22) (t : Fin 1024) (c : Fin 512) : EReal :=
  Scalar.select (liveW (L (ix1 b)) (wd t))
    (key (ix4 b (rowOf (rowW (L (ix1 b)) (wd t))) v c)
      + ratioE (L (ix1 b)) (wd t)
        * (key (ix4 b (rowOf (IntOp.addi (rowW (L (ix1 b)) (wd t)) 1#32)) v c) - key (ix4 b (rowOf (rowW (L (ix1 b)) (wd t))) v c)))
    zeroE

end Cert.Interp

end
-- ==== Proof.Algebra.lean ====
/-
  The weighted sum over all source rows equals the two-row blend.

  For a length word between 1 and 1024 the stride 1024 div L is a positive word, so the blend ratio is an honest real
  number; the clipped source row lies in [0, 1022], so it and its successor name two of the 1024 rows without wrapping.
  Each weight is then a real number: the indicator of the first row times (1 - ratio) plus the indicator of the second row
  times ratio, both scaled by the live bit.  With every key entry real, the sum over the 1024 rows is a real sum in which
  only those two rows survive, and (1 - r) * a + r * b = a + r * (b - a).  Where the live bit is clear every weight is
  zero and both sides are zero.
-/
import proofs.«427860_j52862457479597_2_alg».proof.Proof.Spec
import Idealize.ShloMosaic.Lib.IdealHost

noncomputable section

namespace Cert.Interp

open Idealize.ShloMosaic Idealize.ShloMosaic.ValueIdx

/-! ## Word facts -/

/-- A word whose signed value is at least one is its own signed maximum with one. -/
theorem maxsi_one_of_pos (L : BitVec 32) (h : 1 ≤ L.toInt) : IntOp.maxsi L 1#32 = L := by
  unfold IntOp.maxsi
  split
  · rfl
  · rename_i hlt
    rw [BitVec.slt_iff_toInt_lt] at hlt
    apply BitVec.eq_of_toInt_eq
    have h1 : (1#32 : BitVec 32).toInt = 1 := by decide
    omega

/-- A word with a positive signed value has sign word one. -/
theorem sgnW_of_pos (x : BitVec 32) (h : 1 ≤ x.toInt) : sgnW x = 1 := by
  unfold sgnW
  have hne : x ≠ 0 := by
    rintro rfl
    simp at h
  have hmsb : x.msb = false := by
    rw [BitVec.msb_eq_toInt]
    simp only [decide_eq_false_iff_not]
    omega
  rw [if_neg hne, hmsb]
  rfl

/-- The stride of a length between 1 and 1024 is the truncated quotient 1024 / L, which is at least one. -/
theorem stepW_toInt_pos (L : BitVec 32) (h1 : 1 ≤ L.toInt) (h2 : L.toInt ≤ 1024) : 1 ≤ (stepW L).toInt := by
  have hne : L ≠ 0 := by
    rintro rfl
    simp at h1
  have hs : sgnW (1024#32) = sgnW L := by
    rw [sgnW_of_pos L h1, sgnW_of_pos _ (by decide)]
  have hc : ¬ IntOp.SDivCorner (1024#32) L := by
    unfold IntOp.SDivCorner
    rintro (h | ⟨h, -⟩)
    · exact hne h
    · exact absurd h (by decide)
  have hsel : stepW L = (1024#32 : BitVec 32).sdiv L := by
    unfold stepW fdivW
    rw [hs]
    have : IntOp.cmpi .ne (sgnW L) (sgnW L) = 0#1 := by simp [IntOp.cmpi]
    rw [this]
    have : ∀ x : BitVec 1, IntOp.andi 0#1 x = 0#1 := by decide
    rw [this, select_zero]
    unfold IntOp.divsi
    rw [if_neg hc]
  rw [hsel, BitVec.toInt_sdiv_of_ne_or_ne _ _ (Or.inl (by decide))]
  have h1024 : (1024#32 : BitVec 32).toInt = 1024 := by decide
  rw [h1024, Int.tdiv_eq_ediv_of_nonneg (by norm_num)]
  exact Int.le_ediv_of_mul_le (by omega) (by omega)

/-- Clipping into [0, 1022] by a signed maximum and minimum leaves an unsigned value of at most 1022. -/
theorem rowW_toNat_le (L t : BitVec 32) : (rowW L t).toNat ≤ 1022 := by
  unfold rowW
  generalize srcW L t = x
  have h0 : (0#32 : BitVec 32).toInt = 0 := by decide
  have h1022 : (1022#32 : BitVec 32).toInt = 1022 := by decide
  have hm : 0 ≤ (IntOp.maxsi 0#32 x).toInt := by
    unfold IntOp.maxsi
    split
    · omega
    · rename_i hlt
      rw [BitVec.slt_iff_toInt_lt] at hlt
      omega
  generalize IntOp.maxsi 0#32 x = m at hm
  have hr : 0 ≤ (IntOp.minsi 1022#32 m).toInt ∧ (IntOp.minsi 1022#32 m).toInt ≤ 1022 := by
    unfold IntOp.minsi
    split
    · omega
    · rename_i hlt
      rw [BitVec.slt_iff_toInt_lt] at hlt
      omega
  generalize IntOp.minsi 1022#32 m = r at hr
  have := BitVec.toInt_eq_toNat_cond r
  have := r.isLt
  split at * <;> omega

/-- A word below 1024 is the word of the row it names. -/
theorem wd_rowOf (w : BitVec 32) (h : w.toNat < 1024) : wd (rowOf w) = w := by
  apply BitVec.eq_of_toNat_eq
  simp only [wd, rowOf, BitVec.toNat_ofNat]
  omega

/-- The successor of a word of at most 1022 does not wrap. -/
theorem addi_one_toNat (w : BitVec 32) (h : w.toNat ≤ 1022) : (IntOp.addi w 1#32).toNat = w.toNat + 1 := by
  unfold IntOp.addi
  rw [BitVec.toNat_add]
  simp
  omega

/-- Distinct rows have distinct words. -/
theorem wd_inj {i s : Fin 1024} : wd i = wd s ↔ i = s := by
  constructor
  · intro h
    have := congrArg BitVec.toNat h
    simp only [wd, BitVec.toNat_ofNat] at this
    apply Fin.ext
    have := i.isLt
    have := s.isLt
    omega
  · rintro rfl; rfl

/-- The equality bit of two row words, as an extended real, is the indicator of the rows being equal. -/
theorem bitE_cmpi_eq (i s : Fin 1024) :
    bitE (IntOp.cmpi .eq (wd i) (wd s)) = (((if i = s then 1 else 0 : ℝ)) : EReal) := by
  by_cases h : i = s
  · subst h
    simp [bitE, IntOp.cmpi]
  · have : wd i ≠ wd s := fun e => h (wd_inj.mp e)
    simp [bitE, IntOp.cmpi, this, h]

/-- A bit is zero or one. -/
theorem bit_cases (b : BitVec 1) : b = 0#1 ∨ b = 1#1 := by
  revert b; decide

/-! ## The literals and the ratio -/

theorem oneE_eq : oneE = ((1 : ℝ) : EReal) := by
  unfold oneE
  rw [Ideal.ofBits_one_f32]
  rfl

theorem zeroE_eq : zeroE = 0 := by
  unfold zeroE
  exact Ideal.ofBits_zero_f32

/-- For a length between 1 and 1024 the blend ratio is a real number. -/
theorem ratioE_real (L t : BitVec 32) (h1 : 1 ≤ L.toInt) (h2 : L.toInt ≤ 1024) : ∃ ρ : ℝ, ratioE L t = (ρ : EReal) := by
  have hpos := stepW_toInt_pos L h1 h2
  have hne : (((stepW L).toInt : ℝ)) ≠ 0 := by
    have : (stepW L).toInt ≠ 0 := by omega
    exact_mod_cast this
  refine ⟨((subW L t).toInt : ℝ) * (1 / ((stepW L).toInt : ℝ)), ?_⟩
  unfold ratioE
  rw [Ideal.div_coe hne, ← EReal.coe_mul]

/-! ## Real sums -/

/-- The inclusion of the reals commutes with finite sums. -/
theorem coe_finsum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum weighted by two indicators keeps the two indicated terms. -/
theorem sum_two_rows (k : Fin 1024 → ℝ) (i j : Fin 1024) (ρ β : ℝ) :
    ∑ s, ((if i = s then (1 : ℝ) else 0) * ((1 - ρ) * β) + (if j = s then (1 : ℝ) else 0) * (ρ * β)) * k s
      = β * (k i + ρ * (k j - k i)) := by
  simp only [add_mul, Finset.sum_add_distrib, ite_mul, one_mul, zero_mul, Finset.sum_ite_eq, Finset.mem_univ, if_true]
  ring

/-- With a real ratio and both rows named, a weight is a real number. -/
theorem weightE_real (L t : BitVec 32) (ρ : ℝ) (hρ : ratioE L t = (ρ : EReal)) (i j : Fin 1024)
    (hi : rowW L t = wd i) (hj : IntOp.addi (rowW L t) 1#32 = wd j) (s : Fin 1024) :
    weightE L t (wd s)
      = (((if i = s then (1 : ℝ) else 0) * ((1 - ρ) * ((liveW L t).toNat : ℝ))
          + (if j = s then (1 : ℝ) else 0) * (ρ * ((liveW L t).toNat : ℝ)) : ℝ) : EReal) := by
  unfold weightE
  rw [hj, hi, bitE_cmpi_eq, bitE_cmpi_eq, hρ, oneE_eq]
  unfold bitE
  rw [← EReal.coe_sub, ← EReal.coe_mul, ← EReal.coe_mul, ← EReal.coe_mul, ← EReal.coe_mul, ← EReal.coe_add]

/-! ## The two sides agree -/

theorem sumAt_eq_blendAt (key : SKey.Idx → EReal) (L : SLen.Idx → BitVec 32)
    (hfin : ∀ i, ∃ r : ℝ, key i = (r : EReal))
    (hL : ∀ b : Fin 8, 1 ≤ (L (ix1 b)).toInt ∧ (L (ix1 b)).toInt ≤ 1024)
    (b : Fin 8) (v : Fin 22) (t : Fin 1024) (c : Fin 512) :
    sumAt key L b v t c = blendAt key L b v t c := by
  obtain ⟨h1, h2⟩ := hL b
  choose k hk using hfin
  unfold sumAt blendAt
  rw [maxsi_one_of_pos _ h1]
  generalize L (ix1 b) = Lw at h1 h2 ⊢
  obtain ⟨ρ, hρ⟩ := ratioE_real Lw (wd t) h1 h2
  have hR := rowW_toNat_le Lw (wd t)
  have hR1 := addi_one_toNat _ hR
  have hi := (wd_rowOf (rowW Lw (wd t)) (by omega)).symm
  have hj := (wd_rowOf (IntOp.addi (rowW Lw (wd t)) 1#32) (by omega)).symm
  generalize rowOf (rowW Lw (wd t)) = i at hi ⊢
  generalize rowOf (IntOp.addi (rowW Lw (wd t)) 1#32) = j at hj ⊢
  have hsum : ∑ s : Fin 1024, weightE Lw (wd t) (wd s) * key (ix4 b s v c)
      = ((((liveW Lw (wd t)).toNat : ℝ) * (k (ix4 b i v c) + ρ * (k (ix4 b j v c) - k (ix4 b i v c))) : ℝ) : EReal) := by
    rw [← sum_two_rows (fun s => k (ix4 b s v c)) i j ρ, coe_finsum]
    refine Finset.sum_congr rfl fun s _ => ?_
    rw [weightE_real Lw (wd t) ρ hρ i j hi hj s, hk, ← EReal.coe_mul]
  rw [hsum, hρ, hk, hk, ← EReal.coe_sub, ← EReal.coe_mul, ← EReal.coe_add]
  rcases bit_cases (liveW Lw (wd t)) with h | h
  · rw [h, select_zero, zeroE_eq]
    simp
  · rw [h, select_one]
    simp

end Cert.Interp

end
-- ==== Proof.PreDecode.lean ====
import proofs.«427860_j52862457479597_2_alg».proof.Pre_finite_inputs
import proofs.«427860_j52862457479597_2_alg».proof.Proof.Gen.Pre_finite_inputs
import proofs.«427860_j52862457479597_2_alg».proof.Proof.Spec
import Idealize.ShloMosaic.Lib.ReduceAll
import Idealize.ShloMosaic.Lib.IdealHost

noncomputable section

namespace Cert.Interp.Pre

open Idealize.ShloMosaic Idealize.ShloMosaic.ValueIdx Cert.Interp

/-- The shape with no axes has exactly one index. -/
instance : Subsingleton Cert.Pre_finite_inputs.S_.Idx := ⟨fun a b => funext fun d => d.elim0⟩

/-- An extended real whose absolute value lies strictly below +∞ is a real number: both infinities have
    absolute value +∞. -/
theorem real_of_abs_lt_top (x : EReal) (h : max x (-x) < ⊤) : ∃ r : ℝ, x = (r : EReal) := by
  induction x using EReal.rec with
  | bot => simp at h
  | coe r => exact ⟨r, rfl⟩
  | top => simp at h

/-- The ordered "less than" comparison of two extended reals yields the bit 1 only when the strict
    inequality holds. -/
theorem lt_of_cmp_olt {x y : EReal} (h : Ideal.cmp .olt x y = 1#1) : x < y := by
  simp only [Ideal.cmp] at h
  by_cases hxy : x < y
  · exact hxy
  · simp [hxy] at h

/-- The single-precision pattern with all exponent bits set and an empty fraction denotes +∞. -/
theorem ofBits_inf : Ideal.ofBits .f32 0x7F800000#32 = (⊤ : EReal) := by
  simp [Ideal.ofBits, Ideal.ieee]

/-- What the precondition says once read back: it is the conjunction of three "for all" statements, so its being true
    gives each of them at every index. Every key entry has absolute value strictly below +∞, hence is a real number, and
    every length word, read as a signed integer, lies between 1 and 1024. -/
theorem pre_decode (key : FVec Ideal Cert.Pre_finite_inputs.S8x1024x22x512 .f32) (L : IVec Cert.Pre_finite_inputs.S8 32)
    (h : Cert.Pre_finite_inputs.fn (F := Ideal) key L = fun _ => 1#1) :
    (∀ i, ∃ r : ℝ, key i = (r : EReal)) ∧ (∀ b : Fin 8, 1 ≤ (L (ix1 b)).toInt ∧ (L (ix1 b)).toInt ≤ 1024) := by
  have h0 := congrFun h ix0
  dsimp only [Cert.Pre_finite_inputs.fn] at h0
  -- the printed predicate is a conjunction of three bits, each an "all" over one array of bits
  change IntOp.andi (IntOp.andi _ _) _ = 1#1 at h0
  rw [IntOp.andi_eq_one, IntOp.andi_eq_one] at h0
  obtain ⟨⟨hk, hge⟩, hle⟩ := h0
  refine ⟨fun i => ?_, fun b => ⟨?_, ?_⟩⟩
  · -- the element fact: the absolute value of key i, which is max (key i) (-key i), lies below +∞
    have e := Host.reduce_andi_all _ _ _ _ ix0 hk i
    have hlt : max (key i) (-(key i)) < (⊤ : EReal) := by
      have := lt_of_cmp_olt (x := max (key i) (-(key i))) (y := Ideal.ofBits .f32 0x7F800000#32) e
      rwa [ofBits_inf] at this
    exact real_of_abs_lt_top _ hlt
  · -- the element fact: 1 ≤ L b as signed words
    have e := Host.reduce_andi_all _ _ _ _ ix0 hge (ix1 b)
    change IntOp.cmpi .sge (L (ix1 b)) (1#32) = 1#1 at e
    rw [IntOp.cmpi_sge, show (1#32 : BitVec 32).toInt = 1 from by decide] at e
    exact e
  · -- the element fact: L b ≤ 1024 as signed words
    have e := Host.reduce_andi_all _ _ _ _ ix0 hle (ix1 b)
    change IntOp.cmpi .sle (L (ix1 b)) (1024#32) = 1#1 at e
    rw [IntOp.cmpi_sle, show (1024#32 : BitVec 32).toInt = 1024 from by decide] at e
    exact e

end Cert.Interp.Pre

end
-- ==== Proof.KernelHost.lean ====
/-
  The host prefix of the weighted-sum program, read at an index.

  Before its one kernel region the program computes on the host, from the length array `L` (one 32-bit word per batch
  entry), a weight array  W[b, t, s]  over batch `b`, output row `t` and source row `s`, and flattens the key array
  from [8, 1024, 22, 512] to [8, 1024, 11264] by merging the last two axes.  With  L' = max(L, 1),  step = 1024 div L',
  i = t div step,  j = t mod step,  ratio = j / step,  i_c = i clipped into [0, 1022]  and  live = [i < L' - 1]:

      W[b, t, s] = [s = i_c] * ((1 - ratio) * live) + [s = i_c + 1] * (ratio * live).

  This file names each of these stages as an array built with the program's own array operations, shows that the
  contents the kernel region finds in the weight buffer and in the flattened key buffer are these arrays, and then
  reads every stage at one index, where it is the scalar function of the same meaning: a broadcast keeps the
  coordinates of the operand's non-unit axes, an iota is its coordinate as a word, an elementwise operation acts on
  the elements, and merging the last two axes sends (v, c) to v * 512 + c.
-/
import proofs.«427860_j52862457479597_2_alg».proof.Proof.Gen.KernelIdeal.Frame
import proofs.«427860_j52862457479597_2_alg».proof.Proof.Spec
import Idealize.ShloMosaic.Lib.StableHlo.Run
import Idealize.ShloMosaic.Lib.Pipeline.Value
import Idealize.ShloMosaic.Lib.IdealHost
import Idealize.ShloMosaic.Lib.ValueIdx

set_option maxRecDepth 16384

noncomputable section

namespace Cert.KernelIdeal.HostVal

open Cert.KernelIdeal Cert.KernelIdeal.Gen Idealize.ShloMosaic Idealize.ShloMosaic.TcCoe Idealize.SL.Sem
open Idealize.ShloMosaic.ValueIdx Cert.Interp

variable (m : (ℓ : Loc nD τ sig) → Buf (Elt Ideal) ℓ)

/-! ## The host stages as arrays

Each definition is one named stage of the host computation that precedes the kernel region, as a function of the
length array `L` alone: the clamped length, the stride, the source row, the position inside the stride, the blend
ratio, the clipped row, the live mask, the two one-hot masks and the weight array. Each is written with the same
array operations, in the same order, as the program's text, so that the program's fold computes to it. -/

section Stages

variable (L : IVec S8 32)

/-- The length clamped below by one. -/
def lenA : IVec S8 32 :=
  maxsi L (broadcastInDim S8 ![] Gen.bcast_S_S8 (constantI S_ 32 1#32))

/-- The stride: the floor quotient of 1024 by the clamped length. -/
def stepA : IVec S8 32 :=
  let n : IVec S_ 32 := constantI S_ 32 1024#32
  let q : IVec S8 32 := Host.divsi (broadcastInDim S8 ![] Gen.bcast_S_S8 n) (lenA L)
  let sx : IVec S8 32 := broadcastInDim S8 ![] Gen.bcast_S_S8 (signi n)
  let sy : IVec S8 32 := signi (lenA L)
  let r : IVec S8 32 := Host.remsi (broadcastInDim S8 ![] Gen.bcast_S_S8 n) (lenA L)
  let z : IVec S8 32 := broadcastInDim S8 ![] Gen.bcast_S_S8 (constantI S_ 32 0#32)
  let o : IVec S8 32 := broadcastInDim S8 ![] Gen.bcast_S_S8 (constantI S_ 32 1#32)
  select (andi (cmpi .ne sx sy) (cmpi .ne r z)) (subi q o) q

/-- The stride as a column. -/
def stepC : IVec S8x1 32 := broadcastInDim S8x1 ![0] Gen.bcast_S8_S8x1_0 (stepA L)

/-- The output rows 0 … 1023 as a row. -/
def rowsR : IVec S1x1024 32 := broadcastInDim S1x1024 ![1] Gen.bcast_S1024_S1x1024_1 (iotaInDim S1024 32 0)

/-- The source row: the floor quotient of the output row by the stride. -/
def srcA : IVec S8x1024 32 :=
  let x : IVec S8x1024 32 := broadcastInDim S8x1024 ![0, 1] Gen.bcast_S1x1024_S8x1024_0_1 rowsR
  let y : IVec S8x1024 32 := broadcastInDim S8x1024 ![0, 1] Gen.bcast_S8x1_S8x1024_0_1 (stepC L)
  let q : IVec S8x1024 32 := Host.divsi x y
  let sx : IVec S8x1024 32 := broadcastInDim S8x1024 ![0, 1] Gen.bcast_S1x1024_S8x1024_0_1 (signi rowsR)
  let sy : IVec S8x1024 32 := broadcastInDim S8x1024 ![0, 1] Gen.bcast_S8x1_S8x1024_0_1 (signi (stepC L))
  let r : IVec S8x1024 32 := Host.remsi x y
  let z : IVec S8x1024 32 := broadcastInDim S8x1024 ![] Gen.bcast_S_S8x1024 (constantI S_ 32 0#32)
  let o : IVec S8x1024 32 := broadcastInDim S8x1024 ![] Gen.bcast_S_S8x1024 (constantI S_ 32 1#32)
  select (andi (cmpi .ne sx sy) (cmpi .ne r z)) (subi q o) q

/-- The divisor of the remainder, as a column: one in place of a zero stride. -/
def safeC : IVec S8x1 32 :=
  select (cmpi .eq (stepC L) (broadcastInDim S8x1 ![] Gen.bcast_S_S8x1 (constantI S_ 32 0#32)))
    (broadcastInDim S8x1 ![] Gen.bcast_S_S8x1 (constantI S_ 32 1#32)) (stepC L)

/-- The position inside the stride: the remainder of the output row by the stride, with the divisor's sign. -/
def subA : IVec S8x1024 32 :=
  let x : IVec S8x1024 32 := broadcastInDim S8x1024 ![0, 1] Gen.bcast_S1x1024_S8x1024_0_1 rowsR
  let y : IVec S8x1024 32 := broadcastInDim S8x1024 ![0, 1] Gen.bcast_S8x1_S8x1024_0_1 (safeC L)
  let r : IVec S8x1024 32 := Host.remsi x y
  let z : IVec S8x1024 32 := broadcastInDim S8x1024 ![] Gen.bcast_S_S8x1024 (constantI S_ 32 0#32)
  let ny : IVec S8x1024 1 := broadcastInDim S8x1024 ![0, 1] Gen.bcast_S8x1_S8x1024_0_1
    (cmpi .slt (safeC L) (broadcastInDim S8x1 ![] Gen.bcast_S_S8x1 (constantI S_ 32 0#32)))
  select (andi (cmpi .ne (cmpi .slt r z) ny) (cmpi .ne r z)) (addi r y) r

/-- The blend ratio: the position inside the stride over the stride, as floats. -/
def ratioA : FVec Ideal S8x1024 .f32 :=
  Host.divf (F := Ideal) (sitofp .f32 (subA L))
    (broadcastInDim S8x1024 ![0, 1] Gen.bcast_S8x1_S8x1024_0_1 (sitofp (F := Ideal) .f32 (stepC L)))

/-- The source row clipped into [0, 1022]. -/
def rowA : IVec S8x1024 32 :=
  minsi (broadcastInDim S8x1024 ![] Gen.bcast_S_S8x1024 (constantI S_ 32 1022#32))
    (maxsi (broadcastInDim S8x1024 ![] Gen.bcast_S_S8x1024 (constantI S_ 32 0#32)) (srcA L))

/-- The live mask: the source row is below the clamped length less one. -/
def liveA : IVec S8x1024 1 :=
  cmpi .slt (srcA L)
    (broadcastInDim S8x1024 ![0, 1] Gen.bcast_S8x1_S8x1024_0_1
      (subi (broadcastInDim S8x1 ![0] Gen.bcast_S8_S8x1_0 (lenA L))
        (broadcastInDim S8x1 ![] Gen.bcast_S_S8x1 (constantI S_ 32 1#32))))

/-- The source rows 0 … 1023 along the last of three axes. -/
def colsR : IVec S1x1x1024 32 := broadcastInDim S1x1x1024 ![2] Gen.bcast_S1024_S1x1x1024_2 (iotaInDim S1024 32 0)

/-- The one-hot mask of the clipped row. -/
def hotA : IVec S8x1024x1024 1 :=
  cmpi .eq
    (broadcastInDim S8x1024x1024 ![0, 1, 2] Gen.bcast_S8x1024x1_S8x1024x1024_0_1_2
      (broadcastInDim S8x1024x1 ![0, 1] Gen.bcast_S8x1024_S8x1024x1_0_1 (rowA L)))
    (broadcastInDim S8x1024x1024 ![0, 1, 2] Gen.bcast_S1x1x1024_S8x1024x1024_0_1_2 colsR)

/-- The one-hot mask of the row after the clipped row. -/
def hotB : IVec S8x1024x1024 1 :=
  cmpi .eq
    (broadcastInDim S8x1024x1024 ![0, 1, 2] Gen.bcast_S8x1024x1_S8x1024x1024_0_1_2
      (addi (broadcastInDim S8x1024x1 ![0, 1] Gen.bcast_S8x1024_S8x1024x1_0_1 (rowA L))
        (broadcastInDim S8x1024x1 ![] Gen.bcast_S_S8x1024x1 (constantI S_ 32 1#32))))
    (broadcastInDim S8x1024x1024 ![0, 1, 2] Gen.bcast_S1x1x1024_S8x1024x1024_0_1_2 colsR)

/-- The live mask as floats. -/
def liveF : FVec Ideal S8x1024 .f32 := uitofp (F := Ideal) .f32 (liveA L)

/-- A per-row float factor laid along the source-row axis. -/
def spread (x : FVec Ideal S8x1024 .f32) : FVec Ideal S8x1024x1024 .f32 :=
  broadcastInDim S8x1024x1024 ![0, 1, 2] Gen.bcast_S8x1024x1_S8x1024x1024_0_1_2
    (broadcastInDim S8x1024x1 ![0, 1] Gen.bcast_S8x1024_S8x1024x1_0_1 x)

/-- The weight array: the first mask times (1 − ratio) · live plus the second mask times ratio · live, narrowed. -/
def wtA : FVec Ideal S8x1024x1024 .bf16 :=
  truncf .bf16
    (addf
      (mulf (uitofp (F := Ideal) .f32 (hotA L))
        (spread (mulf (subf (broadcastInDim S8x1024 ![] Gen.bcast_S_S8x1024 (constant (F := Ideal) S_ .f32 0x3F800000#32)) (ratioA L)) (liveF L))))
      (mulf (uitofp (F := Ideal) .f32 (hotB L)) (spread (mulf (ratioA L) (liveF L)))))
    Gen.bitsLt_bf16_f32

end Stages

/-! ## The broadcasts read at an index

Each broadcast of the host computation, read at an index given by its coordinates, is the operand at the coordinates
it keeps (a unit axis of the operand is read at zero). -/

section Reads

variable {α : Type}

/-- A vector over the batch laid as a column. -/
theorem bc_col (x : S8.Idx → α) (b : Fin 8) (z : Fin 1) :
    broadcastInDim S8x1 ![0] Gen.bcast_S8_S8x1_0 x (ix2 b z) = x (ix1 b) :=
  broadcastInDim_apply _ _ x (ix2 b z) (ix1 b) (fun a => by match a with | ⟨0, _⟩ => rfl)

/-- A vector over the rows laid as a row. -/
theorem bc_row (x : S1024.Idx → α) (z : Fin 1) (t : Fin 1024) :
    broadcastInDim S1x1024 ![1] Gen.bcast_S1024_S1x1024_1 x (ix2 z t) = x (ix1 t) :=
  broadcastInDim_apply _ _ x (ix2 z t) (ix1 t) (fun a => by match a with | ⟨0, _⟩ => rfl)

/-- A row repeated over the batch. -/
theorem bc_rowMat (x : S1x1024.Idx → α) (b : Fin 8) (t : Fin 1024) :
    broadcastInDim S8x1024 ![0, 1] Gen.bcast_S1x1024_S8x1024_0_1 x (ix2 b t) = x (ix2 0 t) :=
  broadcastInDim_apply _ _ x (ix2 b t) (ix2 0 t) (fun a => by match a with | ⟨0, _⟩ => rfl | ⟨1, _⟩ => rfl)

/-- A column repeated along the rows. -/
theorem bc_colMat (x : S8x1.Idx → α) (b : Fin 8) (t : Fin 1024) :
    broadcastInDim S8x1024 ![0, 1] Gen.bcast_S8x1_S8x1024_0_1 x (ix2 b t) = x (ix2 b 0) :=
  broadcastInDim_apply _ _ x (ix2 b t) (ix2 b 0) (fun a => by match a with | ⟨0, _⟩ => rfl | ⟨1, _⟩ => rfl)

/-- A (batch, row) array given a trailing unit axis. -/
theorem bc_mat3 (x : S8x1024.Idx → α) (b : Fin 8) (t : Fin 1024) (z : Fin 1) :
    broadcastInDim S8x1024x1 ![0, 1] Gen.bcast_S8x1024_S8x1024x1_0_1 x (ix3 b t z) = x (ix2 b t) :=
  broadcastInDim_apply _ _ x (ix3 b t z) (ix2 b t) (fun a => by match a with | ⟨0, _⟩ => rfl | ⟨1, _⟩ => rfl)

/-- A vector over the source rows laid along the last of three axes. -/
theorem bc_row3 (x : S1024.Idx → α) (z z' : Fin 1) (s : Fin 1024) :
    broadcastInDim S1x1x1024 ![2] Gen.bcast_S1024_S1x1x1024_2 x (ix3 z z' s) = x (ix1 s) :=
  broadcastInDim_apply _ _ x (ix3 z z' s) (ix1 s) (fun a => by match a with | ⟨0, _⟩ => rfl)

/-- A (batch, row, 1) array repeated along the source rows. -/
theorem bc_col3 (x : S8x1024x1.Idx → α) (b : Fin 8) (t s : Fin 1024) :
    broadcastInDim S8x1024x1024 ![0, 1, 2] Gen.bcast_S8x1024x1_S8x1024x1024_0_1_2 x (ix3 b t s) = x (ix3 b t 0) :=
  broadcastInDim_apply _ _ x (ix3 b t s) (ix3 b t 0)
    (fun a => by match a with | ⟨0, _⟩ => rfl | ⟨1, _⟩ => rfl | ⟨2, _⟩ => rfl)

/-- A (1, 1, source row) array repeated over batch and row. -/
theorem bc_cube (x : S1x1x1024.Idx → α) (b : Fin 8) (t s : Fin 1024) :
    broadcastInDim S8x1024x1024 ![0, 1, 2] Gen.bcast_S1x1x1024_S8x1024x1024_0_1_2 x (ix3 b t s) = x (ix3 0 0 s) :=
  broadcastInDim_apply _ _ x (ix3 b t s) (ix3 0 0 s)
    (fun a => by match a with | ⟨0, _⟩ => rfl | ⟨1, _⟩ => rfl | ⟨2, _⟩ => rfl)

end Reads

/-! ## The stages read at an index

At batch `b`, output row `t` and source row `s` each stage is the scalar function of the same name over the clamped
length word of batch `b`. -/

section AtIndex

variable (L : IVec S8 32)

theorem lenA_apply (b : Fin 8) : lenA L (ix1 b) = IntOp.maxsi (L (ix1 b)) 1#32 := rfl

theorem stepA_apply (b : Fin 8) : stepA L (ix1 b) = stepW (lenA L (ix1 b)) := rfl

theorem stepC_apply (b : Fin 8) (z : Fin 1) : stepC L (ix2 b z) = stepW (lenA L (ix1 b)) := by
  unfold stepC; rw [bc_col, stepA_apply]

theorem rowsR_apply (z : Fin 1) (t : Fin 1024) : rowsR (ix2 z t) = wd t := by
  unfold rowsR; rw [bc_row]; rfl

theorem colsR_apply (z z' : Fin 1) (s : Fin 1024) : colsR (ix3 z z' s) = wd s := by
  unfold colsR; rw [bc_row3]; rfl

theorem srcA_apply (b : Fin 8) (t : Fin 1024) : srcA L (ix2 b t) = srcW (lenA L (ix1 b)) (wd t) := by
  simp only [srcA, select, andi, cmpi, subi, Host.divsi, Host.remsi]
  repeat rw [bc_rowMat]
  repeat rw [bc_colMat]
  simp only [signi, rowsR_apply, stepC_apply]
  rfl

theorem safeC_apply (b : Fin 8) (z : Fin 1) : safeC L (ix2 b z) = safeW (stepW (lenA L (ix1 b))) := by
  simp only [safeC, select, cmpi, stepC_apply]
  rfl

theorem subA_apply (b : Fin 8) (t : Fin 1024) : subA L (ix2 b t) = subW (lenA L (ix1 b)) (wd t) := by
  simp only [subA, select, andi, cmpi, addi, Host.remsi]
  repeat rw [bc_rowMat]
  repeat rw [bc_colMat]
  simp only [cmpi, rowsR_apply, safeC_apply]
  rfl

theorem ratioA_apply (b : Fin 8) (t : Fin 1024) : ratioA L (ix2 b t) = ratioE (lenA L (ix1 b)) (wd t) := by
  simp only [ratioA, Host.divf]
  rw [bc_colMat]
  simp only [sitofp, subA_apply, stepC_apply]
  rfl

theorem rowA_apply (b : Fin 8) (t : Fin 1024) : rowA L (ix2 b t) = rowW (lenA L (ix1 b)) (wd t) := by
  simp only [rowA, minsi, maxsi, srcA_apply]
  rfl

theorem liveA_apply (b : Fin 8) (t : Fin 1024) : liveA L (ix2 b t) = liveW (lenA L (ix1 b)) (wd t) := by
  simp only [liveA, cmpi]
  rw [bc_colMat]
  simp only [subi]
  rw [bc_col]
  simp only [srcA_apply]
  rfl

theorem hotA_apply (b : Fin 8) (t s : Fin 1024) :
    hotA L (ix3 b t s) = IntOp.cmpi .eq (rowW (lenA L (ix1 b)) (wd t)) (wd s) := by
  simp only [hotA, cmpi]
  rw [bc_col3, bc_mat3, bc_cube, rowA_apply, colsR_apply]

theorem hotB_apply (b : Fin 8) (t s : Fin 1024) :
    hotB L (ix3 b t s) = IntOp.cmpi .eq (IntOp.addi (rowW (lenA L (ix1 b)) (wd t)) 1#32) (wd s) := by
  simp only [hotB, cmpi]
  rw [bc_col3, bc_cube, colsR_apply]
  simp only [addi]
  rw [bc_mat3, rowA_apply]
  rfl

theorem liveF_apply (b : Fin 8) (t : Fin 1024) : liveF L (ix2 b t) = bitE (liveW (lenA L (ix1 b)) (wd t)) := by
  simp only [liveF, uitofp, liveA_apply]
  rfl

theorem spread_apply (x : FVec Ideal S8x1024 .f32) (b : Fin 8) (t s : Fin 1024) : spread x (ix3 b t s) = x (ix2 b t) := by
  unfold spread; rw [bc_col3, bc_mat3]

theorem wtA_apply (b : Fin 8) (t s : Fin 1024) : wtA L (ix3 b t s) = weightE (lenA L (ix1 b)) (wd t) (wd s) := by
  simp only [wtA, truncf_apply, addf_apply, mulf_apply, subf_apply, spread_apply, uitofp, hotA_apply, hotB_apply,
    ratioA_apply, liveF_apply]
  rfl

end AtIndex

/-! ## The two arrays the kernel region reads -/

/-- The flattened key buffer holds the key array with its last two axes merged. -/
theorem V_flat (c : Dev nD) :
    (V m c main_v0 : S8x1024x11264.Idx → EReal)
      = fun i => shapeCast S8x1024x11264 (m ((c : Thread nD τ).loc main_arg0) : S8x1024x22x512.Idx → EReal)
          Gen.shapeCasts_S8x1024x22x512_S8x1024x11264 i := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

set_option maxHeartbeats 1000000 in
/-- The weight buffer holds the weight array of the length array as launched. -/
theorem V_weight (c : Dev nD) :
    (V m c main_v47 : S8x1024x1024.Idx → EReal)
      = wtA (m ((c : Thread nD τ).loc main_arg1) : S8.Idx → BitVec 32) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  simp only [StableHlo.TRef.ofBuf, StableHlo.TRef.toBuf, cast_eq]
  rfl

/-- Column v * 512 + c of the flattened key buffer is channel `c` of vertex `v` of the key array: both sit at the
    same row-major position. -/
theorem V_flat_apply (c : Dev nD) (b : Fin 8) (s : Fin 1024) (v : Fin 22) (cc : Fin 512) :
    (V m c main_v0 : S8x1024x11264.Idx → EReal) (ix3 b s (colOf v cc))
      = (m ((c : Thread nD τ).loc main_arg0) : S8x1024x22x512.Idx → EReal) (ix4 b s v cc) := by
  refine (congrFun (V_flat m c) (ix3 b s (colOf v cc))).trans (shapeCast_apply _ _ _ (ix4 b s v cc) ?_)
  rw [Shape.rowMajor_val_four, Shape.rowMajor_val_three]
  show ((b.val * 1024 + s.val) * 22 + v.val) * 512 + cc.val = (b.val * 1024 + s.val) * 11264 + (v.val * 512 + cc.val)
  omega

/-- The weight buffer at (b, t, s) is the weight of source row `s` in output row `t` for the clamped length of batch `b`. -/
theorem V_weight_apply (c : Dev nD) (b : Fin 8) (t s : Fin 1024) :
    (V m c main_v47 : S8x1024x1024.Idx → EReal) (ix3 b t s)
      = weightE (IntOp.maxsi ((m ((c : Thread nD τ).loc main_arg1) : S8.Idx → BitVec 32) (ix1 b)) 1#32) (wd t) (wd s) := by
  rw [V_weight m c, wtA_apply, lenA_apply]

end Cert.KernelIdeal.HostVal

end
-- ==== Proof.KernelValue.lean ====
/-
  The value the kernel leaves. Each grid point, a pair (batch b, vertex v), multiplies the 1024 × 1024 weight matrix of
  batch b by the 1024 × 512 slab of keys of batch b and vertex v, and writes the 1024 × 512 product into block (b, v) of
  the result. Entry by entry:  out[b, v, t, c] = ∑ s, W[b, t, s] · key[b, s, v · 512 + c].
  The argument: one entry of the body's product is the sum over the contracted coordinate; every block entry is an entry
  of its array at a place fixed by the point's batch and vertex; and the 8 · 22 output blocks fill the result.
-/
import proofs.«427860_j52862457479597_2_alg».proof.Proof.Gen.KernelIdeal.Value
import proofs.«427860_j52862457479597_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BlockVal

open Cert.KernelIdeal Cert.KernelIdeal.Gen Idealize.ShloMosaic Idealize.ShloMosaic.TcCoe Idealize.SL.Sem
open Idealize.ShloMosaic.Pipeline (Dat)
open Idealize.ShloMosaic.ValueIdx Cert.Interp

/-! ## The product's operand indices, axis by axis -/

/-- The left operand's row is the output entry's row. -/
theorem lhs_row (j : S1024x512.Idx) (k : dot_S1024x1024_S1024x512_S1024x512_1_0_0_1_n_n.contr.Idx) :
    (dot_S1024x1024_S1024x512_S1024x512_1_0_0_1_n_n.lhsIdx j k 0 : ℕ) = (j 0).val := by
  unfold DotDims.lhsIdx
  rw [dif_neg (show ¬ (0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl

/-- The left operand's column is the contracted coordinate. -/
theorem lhs_col (j : S1024x512.Idx) (k : dot_S1024x1024_S1024x512_S1024x512_1_0_0_1_n_n.contr.Idx) :
    (dot_S1024x1024_S1024x512_S1024x512_1_0_0_1_n_n.lhsIdx j k 1 : ℕ) = (k ⟨0, by decide⟩).val :=
  dot_S1024x1024_S1024x512_S1024x512_1_0_0_1_n_n.lhsIdx_val_of_single (cl := 1) rfl j k

/-- The right operand's row is the contracted coordinate. -/
theorem rhs_row (j : S1024x512.Idx) (k : dot_S1024x1024_S1024x512_S1024x512_1_0_0_1_n_n.contr.Idx) :
    (dot_S1024x1024_S1024x512_S1024x512_1_0_0_1_n_n.rhsIdx j k 0 : ℕ) = (k ⟨0, by decide⟩).val :=
  dot_S1024x1024_S1024x512_S1024x512_1_0_0_1_n_n.rhsIdx_val_of_single (cr := 0) rfl j k

/-- The right operand's column is the output entry's column. -/
theorem rhs_col (j : S1024x512.Idx) (k : dot_S1024x1024_S1024x512_S1024x512_1_0_0_1_n_n.contr.Idx) :
    (dot_S1024x1024_S1024x512_S1024x512_1_0_0_1_n_n.rhsIdx j k 1 : ℕ) = (j 1).val := by
  unfold DotDims.rhsIdx
  rw [dif_neg (show ¬ (1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

/-! ## One entry of the block product -/

/-- The two-dimensional product at the ideal values: entry (t, cc) is the sum over the contracted coordinate. -/
theorem matmul_entry (A : FVec Ideal S1024x1024 .bf16) (B : FVec Ideal S1024x512 .bf16) (t : Fin 1024) (cc : Fin 512) :
    matmul dot_S1024x1024_S1024x512_S1024x512_1_0_0_1_n_n none A B (constant (F := Ideal) S1024x512 .f32 0x00000000#32) (ix2 t cc)
      = ∑ s : Fin 1024, A (ix2 t s) * B (ix2 s cc) := by
  show FloatOps.matmul _ none A B _ (ix2 t cc) = _
  rw [Ideal.matmul_constant_zero_apply,
    ← Equiv.sum_comp (contrEquiv1 dot_S1024x1024_S1024x512_S1024x512_1_0_0_1_n_n 1024 rfl rfl).symm]
  refine Finset.sum_congr rfl fun s _ => ?_
  have hs := contrEquiv1_symm_val dot_S1024x1024_S1024x512_S1024x512_1_0_0_1_n_n 1024 rfl rfl s
  have hl : dot_S1024x1024_S1024x512_S1024x512_1_0_0_1_n_n.lhsIdx (ix2 t cc)
      ((contrEquiv1 dot_S1024x1024_S1024x512_S1024x512_1_0_0_1_n_n 1024 rfl rfl).symm s) = ix2 t s := by
    funext a; apply Fin.ext
    match a with
    | ⟨0, _⟩ => exact lhs_row _ _
    | ⟨1, _⟩ => exact (lhs_col _ _).trans hs
  have hr : dot_S1024x1024_S1024x512_S1024x512_1_0_0_1_n_n.rhsIdx (ix2 t cc)
      ((contrEquiv1 dot_S1024x1024_S1024x512_S1024x512_1_0_0_1_n_n 1024 rfl rfl).symm s) = ix2 s cc := by
    funext a; apply Fin.ext
    match a with
    | ⟨0, _⟩ => exact (rhs_row _ _).trans hs
    | ⟨1, _⟩ => exact rhs_col _ _
  rw [hl, hr]

/-- What the body computes from its two blocks, at row t and channel cc of the one output block: the weights' row t
    against the keys' column cc. -/
theorem payload_entry (x0 : Vec Ideal S1x1024x512 .f32) (x1 : Vec Ideal S1x1024x1024 .bf16) (t : Fin 1024) (cc : Fin 512) :
    k0_pay1 x0 x1 (ix4 (0 : Fin 1) (0 : Fin 1) t cc)
      = ∑ s : Fin 1024, x1 (ix3 (0 : Fin 1) t s) * x0 (ix3 (0 : Fin 1) s cc) := by
  unfold k0_pay1
  refine (shapeCast_apply _ shapeCasts_S1024x512_S1x1x1024x512 (ix4 (0 : Fin 1) (0 : Fin 1) t cc) (ix2 t cc) (by
    rw [Shape.rowMajor_val_four, Shape.rowMajor_val_two]
    show t.val * 512 + cc.val = ((0 * 1 + 0) * 1024 + t.val) * 512 + cc.val
    omega)).trans ?_
  refine (matmul_entry _ _ t cc).trans ?_
  refine Finset.sum_congr rfl fun s _ => ?_
  rw [shapeCast_1ab_ab_apply, truncf_apply, shapeCast_1ab_ab_apply]

/-! ## From the blocks to the whole array -/

variable (m : (ℓ : Loc nD τ sig) → Buf (Elt Ideal) ℓ)

/-- The zero offsets of a whole-block access, as a constant function. -/
theorem zero_off3 : (![0, 0, 0] : Fin 3 → Nat) = fun _ => 0 := funext fun a => by fin_cases a <;> rfl
theorem zero_off4 : (![0, 0, 0, 0] : Fin 4 → Nat) = fun _ => 0 := funext fun a => by fin_cases a <;> rfl

/-- The whole result as one function of the flattened keys and the weights: entry (b, v, t, cc) is the product's. -/
abbrev prodArr (x : S8x1024x11264.Idx → EReal) (w : S8x1024x1024.Idx → EReal) : S8x22x1024x512.Idx → EReal :=
  fun j => matAt x w (j 0) (j 1) (j 2) (j 3)

/-- A block's row against a block's column is an entry of the product array, once each block entry is known to be
    the array's entry at the output index's batch (and, for the keys, at its vertex's columns). -/
theorem block_sum (X : S8x1024x11264.Idx → EReal) (W : S8x1024x1024.Idx → EReal)
    (x0 : S1x1024x512.Idx → EReal) (x1 : S1x1024x1024.Idx → EReal) (i : S8x22x1024x512.Idx) (r : Fin 1024) (cc : Fin 512)
    (hw : ∀ s : Fin 1024, x1 (ix3 (0 : Fin 1) r s) = W (ix3 (i 0) (i 2) s))
    (hx : ∀ s : Fin 1024, x0 (ix3 (0 : Fin 1) s cc) = X (ix3 (i 0) s (colOf (i 1) (i 3)))) :
    ∑ s : Fin 1024, x1 (ix3 (0 : Fin 1) r s) * x0 (ix3 (0 : Fin 1) s cc) = prodArr X W i :=
  Finset.sum_congr rfl fun s _ => by rw [hw s, hx s]

/-- How the three windows move over the grid: the keys' block follows the output's batch and vertex, the weights'
    block its batch alone, and no window moves along a row or channel axis. -/
theorem index_facts : ∀ t : Fin cfg0.N,
    win0_0.index t (0 : Fin 3) = win0_2.index t (0 : Fin 4)
    ∧ win0_0.index t (1 : Fin 3) = 0
    ∧ win0_0.index t (2 : Fin 3) = win0_2.index t (1 : Fin 4)
    ∧ win0_1.index t (0 : Fin 3) = win0_2.index t (0 : Fin 4)
    ∧ win0_1.index t (1 : Fin 3) = 0
    ∧ win0_1.index t (2 : Fin 3) = 0
    ∧ win0_2.index t (2 : Fin 4) = 0
    ∧ win0_2.index t (3 : Fin 4) = 0 :=
  (by decide +kernel : ∀ t : Fin grid0.N, _)

/-- Every (batch, vertex) pair is some grid point's output block. -/
theorem point_of : ∀ (b : Fin 8) (v : Fin 22), ∃ t : Fin cfg0.N, win0_2.index t = ![b.val, v.val, 0, 0] :=
  (by decide +kernel : ∀ (b : Fin 8) (v : Fin 22), ∃ t : Fin grid0.N, win0_2.index t = ![b.val, v.val, 0, 0])

/-- The keys' block at a point is the flattened key array read through the block. -/
theorem keys_block (c : Dev nD) (t : Fin cfg0.N) (y : S1x1024x512.Idx) :
    iblk m c 0 t y = V m c main_v0 (((cfg0.win 0).blk t).view.emb y) := rfl

/-- The weights' block at a point is the weight array read through the block. -/
theorem weights_block (c : Dev nD) (t : Fin cfg0.N) (y : S1x1024x1024.Idx) :
    iblk m c 1 t y = V m c main_v47 (((cfg0.win 1).blk t).view.emb y) := rfl

/-- Row r, column s of the weights' block sits in the weight array at the output entry's batch and row. -/
theorem weights_at (t : Fin cfg0.N) (r s : Fin 1024) (cc : Fin 512) :
    ((cfg0.win 1).blk t).view.emb (ix3 (0 : Fin 1) r s)
      = ix3 (((cfg0.win 2).blk t).view.emb (ix4 (0 : Fin 1) (0 : Fin 1) r cc) 0)
          (((cfg0.win 2).blk t).view.emb (ix4 (0 : Fin 1) (0 : Fin 1) r cc) 2) s := by
  obtain ⟨e0, e1, e2, e3, e4, e5, e6, e7⟩ := index_facts t
  funext a; apply Fin.ext
  match a with
  | ⟨0, _⟩ => show win0_1.index t (0 : Fin 3) * 1 + 1 * 0 = win0_2.index t (0 : Fin 4) * 1 + 1 * 0; omega
  | ⟨1, _⟩ => show win0_1.index t (1 : Fin 3) * 1024 + 1 * r.val = win0_2.index t (2 : Fin 4) * 1024 + 1 * r.val; omega
  | ⟨2, _⟩ => show win0_1.index t (2 : Fin 3) * 1024 + 1 * s.val = s.val; omega

/-- Row s, column cc of the keys' block sits in the flattened key array at the output entry's batch, row s, and the
    column of the output entry's vertex and channel. -/
theorem keys_at (t : Fin cfg0.N) (r s : Fin 1024) (cc : Fin 512) :
    ((cfg0.win 0).blk t).view.emb (ix3 (0 : Fin 1) s cc)
      = ix3 (((cfg0.win 2).blk t).view.emb (ix4 (0 : Fin 1) (0 : Fin 1) r cc) 0) s
          (colOf (((cfg0.win 2).blk t).view.emb (ix4 (0 : Fin 1) (0 : Fin 1) r cc) 1)
            (((cfg0.win 2).blk t).view.emb (ix4 (0 : Fin 1) (0 : Fin 1) r cc) 3)) := by
  obtain ⟨e0, e1, e2, e3, e4, e5, e6, e7⟩ := index_facts t
  funext a; apply Fin.ext
  match a with
  | ⟨0, _⟩ => show win0_0.index t (0 : Fin 3) * 1 + 1 * 0 = win0_2.index t (0 : Fin 4) * 1 + 1 * 0; omega
  | ⟨1, _⟩ => show win0_0.index t (1 : Fin 3) * 1024 + 1 * s.val = s.val; omega
  | ⟨2, _⟩ =>
    show win0_0.index t (2 : Fin 3) * 512 + 1 * cc.val
      = (win0_2.index t (1 : Fin 4) * 1 + 1 * 0) * 512 + (win0_2.index t (3 : Fin 4) * 512 + 1 * cc.val)
    omega

/-- The body's result from the two blocks of point t, at row r and channel cc, is the product array's entry at the
    place of the output block where that row and channel sit. -/
theorem payload_at (c : Dev nD) (t : Fin cfg0.N) (r : Fin 1024) (cc : Fin 512) :
    k0_pay1 (iblk m c 0 t) (iblk m c 1 t) (ix4 (0 : Fin 1) (0 : Fin 1) r cc)
      = prodArr (V m c main_v0) (V m c main_v47) (((cfg0.win 2).blk t).view.emb (ix4 (0 : Fin 1) (0 : Fin 1) r cc)) := by
  refine (payload_entry _ _ r cc).trans ?_
  refine block_sum (V m c main_v0) (V m c main_v47) (iblk m c 0 t) (iblk m c 1 t) _ r cc (fun s => ?_) (fun s => ?_)
  · exact (weights_block m c t _).trans (congrArg (V m c main_v47) (weights_at t r s cc))
  · exact (keys_block m c t _).trans (congrArg (V m c main_v0) (keys_at t r s cc))

/-- What grid point t writes back is its block of the product array. -/
theorem flushed_eq (c : Dev nD) (t : Fin cfg0.N) :
    (dats m 0 c).flushed 2 t
      = ((cfg0.win 2).blk t).view.read (Elt Ideal) (prodArr (V m c main_v0) (V m c main_v47)) := by
  rw [Value.flushed2]
  unfold out0_2
  rw [View.canon_unit_zero zero_off4]
  simp only [View.ld_unit_zero (S := S1x1024x512) zero_off3, View.ld_unit_zero (S := S1x1024x1024) zero_off3]
  refine funext fun (y : S1x1x1024x512.Idx) => ?_
  obtain ⟨u0, u1, r, cc, rfl⟩ : ∃ (u0 : Fin 1) (u1 : Fin 1) (r : Fin 1024) (cc : Fin 512), y = ix4 u0 u1 r cc :=
    ⟨y 0, y 1, y 2, y 3, eq_ix4 y⟩
  obtain rfl : u0 = 0 := Subsingleton.elim _ _
  obtain rfl : u1 = 0 := Subsingleton.elim _ _
  exact payload_at m c t r cc
/-- An index of the result lies in grid point t's output block iff each coordinate lies in the block's range. -/
theorem mem_block (t : Fin cfg0.N) (i : S8x22x1024x512.Idx) :
    i ∈ ((cfg0.win 2).blk t).view.set ↔ ∀ a : Fin 4, win0_2.index t a * S1x1x1024x512.size a ≤ (i a).val
      ∧ (i a).val < win0_2.index t a * S1x1x1024x512.size a + S1x1x1024x512.size a := by
  show i ∈ ((View.whole main_v48).slice (win0_2.rect t)).set ↔ _
  rw [View.set_slice_whole, Rect.mem_set_unit]
  exact Iff.rfl

/-- The output blocks fill the result: index (b, v, ·, ·) lies in the block of the point of batch b and vertex v. -/
theorem covered (i : S8x22x1024x512.Idx) :
    ∃ t : Fin cfg0.N, (cfg0.win 2).flush t = true ∧ i ∈ ((cfg0.win 2).blk t).view.set := by
  have h0 : (i 0).val < 8 := (i 0).isLt
  have h1 : (i 1).val < 22 := (i 1).isLt
  have h2 : (i 2).val < 1024 := (i 2).isLt
  have h3 : (i 3).val < 512 := (i 3).isLt
  obtain ⟨t, ht⟩ := point_of ⟨(i 0).val, h0⟩ ⟨(i 1).val, h1⟩
  have q0 : win0_2.index t (0 : Fin 4) = (i 0).val := congrFun ht 0
  have q1 : win0_2.index t (1 : Fin 4) = (i 1).val := congrFun ht 1
  have q2 : win0_2.index t (2 : Fin 4) = 0 := congrFun ht 2
  have q3 : win0_2.index t (3 : Fin 4) = 0 := congrFun ht 3
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 1024 ≤ (i 2).val ∧ (i 2).val < win0_2.index t (2 : Fin 4) * 1024 + 1024; omega
  | ⟨3, _⟩ => show win0_2.index t (3 : Fin 4) * 512 ≤ (i 3).val ∧ (i 3).val < win0_2.index t (3 : Fin 4) * 512 + 512; omega

/-- The array the run leaves is the product array. -/
theorem final_eq (c : Dev nD) :
    (dats m 0 c).arrAt 2 cfg0.N = prodArr (V m c main_v0) (V m c main_v47) :=
  (dats m 0 c).arrAt_eq_of_cover 2 (prodArr (V m c main_v0) (V m c main_v47)) (fun t _ => flushed_eq m c t) covered

/-- Entry by entry: the result at batch b, vertex v, row t, channel cc is the weights' row t of batch b against the
    keys' column (v, cc) of batch b. -/
theorem out_apply (c : Dev nD) (b : Fin 8) (v : Fin 22) (t : Fin 1024) (cc : Fin 512) :
    ((dats m 0 c).arrAt 2 cfg0.N : S8x22x1024x512.Idx → EReal) (ix4 b v t cc)
      = matAt (V m c main_v0) (V m c main_v47) b v t cc := by
  rw [final_eq]

end Cert.KernelIdeal.BlockVal

end
-- ==== Proof.RefOps.lean ====
/-
  The reference computation as one straight line.

  The reference builds its blend out of small steps on whole arrays: a row counter, the stride
  T div L and the row index t div stride (each a truncated quotient corrected downwards where the
  signs differ and the remainder is not zero), the position t mod stride inside a stride (a truncated
  remainder moved into the divisor's sign), their quotient as the blending ratio, the row index
  clipped into [0, T - 2], the two rows read at the clipped index and its successor, the blend
  a + ratio * (b - a), and a final choice between the blend and zero by whether the row index lies
  before L - 1.  Five of those steps are written as calls of small named functions, three of which call
  a selection function in turn.

  A call means the callee's steps carried out on the caller's arrays, each intermediate value in an
  array of its own.  Here every call is replaced by its steps at the place where it stands, so the whole
  computation is a single list of one hundred and twenty-seven array operations in the order they run;
  the first theorem says the computation as written is exactly that list carried out in order.
-/
import proofs.«427860_j52862457479597_2_alg».proof.ReferenceIdeal
import proofs.«427860_j52862457479597_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations in order.  Entries 0 to 2: the row counter, the input with its row axis moved behind
    the channel axis, the constant T.  Entries 3 to 19: the stride T div L, ending in the choice of the
    corrected quotient.  Entries 20 to 44: the row index t div stride, the same correction on the whole
    table.  Entries 45 to 72: t mod stride, with a zero stride replaced by one before the remainder is
    taken.  Entries 73 to 78: the ratio (t mod stride) / stride as a quotient of converted integers.
    Entries 79 to 86: the row index clipped into [0, T - 2].  Entries 87 to 95 and 96 to 107: the two
    row reads, each index first moved into range by adding T where negative.  Entries 108 to 112: the
    blend a + ratio * (b - a).  Entries 113 to 119: the test row index < L - 1.  Entries 120 to 126: zero
    spread to the full shape and the final choice. -/
abbrev ops : List (HloOp τ sig (Elt F)) :=
  [ nullary main_v0 (iotaInDim S1024 32 0),
    unary main_arg0 main_v1 ((transpose S8x22x1024x512 [0, 2, 1, 3] · transposes_S8x1024x22x512_S8x22x1024x512_0_2_1_3) : (⟨S8x1024x22x512, .f32⟩ : BufTy).Contents (Elt F) → (⟨S8x22x1024x512, .f32⟩ : BufTy).Contents (Elt F)),
    nullary main_c (constantI S_ 32 1024#32),
    TRef.unary (.of main_c : TRef sig ⟨S_, .i32⟩) main_call0.v0 id,
    TRef.unary main_call0.v0 main_call0.v1 (broadcastInDim S8 ![] bcast_S_S8),
    TRef.binary main_call0.v1 (.of main_arg1 : TRef sig ⟨S8, .i32⟩) main_call0.v2 Host.divsi,
    TRef.unary main_call0.v0 main_call0.v3 signi,
    TRef.unary (.of main_arg1 : TRef sig ⟨S8, .i32⟩) main_call0.v4 signi,
    TRef.unary main_call0.v3 main_call0.v5 (broadcastInDim S8 ![] bcast_S_S8),
    TRef.binary main_call0.v5 main_call0.v4 main_call0.v6 (cmpi .ne),
    TRef.unary main_call0.v0 main_call0.v7 (broadcastInDim S8 ![] bcast_S_S8),
    TRef.binary main_call0.v7 (.of main_arg1 : TRef sig ⟨S8, .i32⟩) main_call0.v8 Host.remsi,
    TRef.nullary main_call0.c (constantI S_ 32 0#32),
    TRef.unary main_call0.c main_call0.v9 (broadcastInDim S8 ![] bcast_S_S8),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S8 ![] bcast_S_S8),
    TRef.binary main_call0.v2 main_call0.v12 main_call0.v13 subi,
    TRef.ternary main_call0.v11 main_call0.v13 main_call0.v2 main_call0.call0.v0 select,
    TRef.unary (.of main_v0 : TRef sig ⟨S1024, .i32⟩) main_call1.v0 (broadcastInDim S1x1024 ![1] bcast_S1024_S1x1024_1),
    TRef.unary (.of main_v2 : TRef sig ⟨S8, .i32⟩) main_call1.v1 (broadcastInDim S8x1 ![0] bcast_S8_S8x1_0),
    TRef.unary main_call1.v0 main_call1.v2 (broadcastInDim S8x1024 ![0, 1] bcast_S1x1024_S8x1024_0_1),
    TRef.unary main_call1.v1 main_call1.v3 (broadcastInDim S8x1024 ![0, 1] bcast_S8x1_S8x1024_0_1),
    TRef.binary main_call1.v2 main_call1.v3 main_call1.v4 Host.divsi,
    TRef.unary (.of main_v0 : TRef sig ⟨S1024, .i32⟩) main_call1.v5 signi,
    TRef.unary (.of main_v2 : TRef sig ⟨S8, .i32⟩) main_call1.v6 signi,
    TRef.unary main_call1.v5 main_call1.v7 (broadcastInDim S1x1024 ![1] bcast_S1024_S1x1024_1),
    TRef.unary main_call1.v6 main_call1.v8 (broadcastInDim S8x1 ![0] bcast_S8_S8x1_0),
    TRef.unary main_call1.v7 main_call1.v9 (broadcastInDim S8x1024 ![0, 1] bcast_S1x1024_S8x1024_0_1),
    TRef.unary main_call1.v8 main_call1.v10 (broadcastInDim S8x1024 ![0, 1] bcast_S8x1_S8x1024_0_1),
    TRef.binary main_call1.v9 main_call1.v10 main_call1.v11 (cmpi .ne),
    TRef.unary (.of main_v0 : TRef sig ⟨S1024, .i32⟩) main_call1.v12 (broadcastInDim S1x1024 ![1] bcast_S1024_S1x1024_1),
    TRef.unary (.of main_v2 : TRef sig ⟨S8, .i32⟩) main_call1.v13 (broadcastInDim S8x1 ![0] bcast_S8_S8x1_0),
    TRef.unary main_call1.v12 main_call1.v14 (broadcastInDim S8x1024 ![0, 1] bcast_S1x1024_S8x1024_0_1),
    TRef.unary main_call1.v13 main_call1.v15 (broadcastInDim S8x1024 ![0, 1] bcast_S8x1_S8x1024_0_1),
    TRef.binary main_call1.v14 main_call1.v15 main_call1.v16 Host.remsi,
    TRef.nullary main_call1.c (constantI S_ 32 0#32),
    TRef.unary main_call1.c main_call1.v17 (broadcastInDim S8x1024 ![] bcast_S_S8x1024),
    TRef.binary main_call1.v16 main_call1.v17 main_call1.v18 (cmpi .ne),
    TRef.binary main_call1.v11 main_call1.v18 main_call1.v19 andi,
    TRef.nullary main_call1.c_0 (constantI S_ 32 1#32),
    TRef.unary main_call1.c_0 main_call1.v20 (broadcastInDim S8x1024 ![] bcast_S_S8x1024),
    TRef.binary main_call1.v4 main_call1.v20 main_call1.v21 subi,
    TRef.ternary main_call1.v19 main_call1.v21 main_call1.v4 main_call1.call0.v0 select,
    TRef.nullary main_call2.c (constantI S_ 32 0#32),
    TRef.unary main_call2.c main_call2.v0 (broadcastInDim S8 ![] bcast_S_S8),
    TRef.binary (.of main_v2 : TRef sig ⟨S8, .i32⟩) main_call2.v0 main_call2.v1 (cmpi .eq),
    TRef.nullary main_call2.c_0 (constantI S_ 32 1#32),
    TRef.unary main_call2.c_0 main_call2.call0.v0 (broadcastInDim S8 ![] bcast_S_S8),
    TRef.ternary main_call2.v1 main_call2.call0.v0 (.of main_v2 : TRef sig ⟨S8, .i32⟩) main_call2.call0.v1 select,
    TRef.unary (.of main_v0 : TRef sig ⟨S1024, .i32⟩) main_call2.v3 (broadcastInDim S1x1024 ![1] bcast_S1024_S1x1024_1),
    TRef.unary main_call2.call0.v1 main_call2.v4 (broadcastInDim S8x1 ![0] bcast_S8_S8x1_0),
    TRef.unary main_call2.v3 main_call2.v5 (broadcastInDim S8x1024 ![0, 1] bcast_S1x1024_S8x1024_0_1),
    TRef.unary main_call2.v4 main_call2.v6 (broadcastInDim S8x1024 ![0, 1] bcast_S8x1_S8x1024_0_1),
    TRef.binary main_call2.v5 main_call2.v6 main_call2.v7 Host.remsi,
    TRef.nullary main_call2.c_1 (constantI S_ 32 0#32),
    TRef.unary main_call2.c_1 main_call2.v8 (broadcastInDim S8x1024 ![] bcast_S_S8x1024),
    TRef.binary main_call2.v7 main_call2.v8 main_call2.v9 (cmpi .ne),
    TRef.nullary main_call2.c_2 (constantI S_ 32 0#32),
    TRef.unary main_call2.c_2 main_call2.v10 (broadcastInDim S8x1024 ![] bcast_S_S8x1024),
    TRef.binary main_call2.v7 main_call2.v10 main_call2.v11 (cmpi .slt),
    TRef.nullary main_call2.c_3 (constantI S_ 32 0#32),
    TRef.unary main_call2.c_3 main_call2.v12 (broadcastInDim S8 ![] bcast_S_S8),
    TRef.binary main_call2.call0.v1 main_call2.v12 main_call2.v13 (cmpi .slt),
    TRef.unary main_call2.v13 main_call2.v14 (broadcastInDim S8x1 ![0] bcast_S8_S8x1_0),
    TRef.unary main_call2.v14 main_call2.v15 (broadcastInDim S8x1024 ![0, 1] bcast_S8x1_S8x1024_0_1),
    TRef.binary main_call2.v11 main_call2.v15 main_call2.v16 (cmpi .ne),
    TRef.binary main_call2.v16 main_call2.v9 main_call2.v17 andi,
    TRef.unary main_call2.call0.v1 main_call2.v18 (broadcastInDim S8x1 ![0] bcast_S8_S8x1_0),
    TRef.unary main_call2.v18 main_call2.v19 (broadcastInDim S8x1024 ![0, 1] bcast_S8x1_S8x1024_0_1),
    TRef.binary main_call2.v7 main_call2.v19 main_call2.v20 addi,
    TRef.ternary main_call2.v17 main_call2.v20 main_call2.v7 main_call2.v21 select,
    unary main_v4 main_v5 (sitofp .f32 : (⟨S8x1024, .i32⟩ : BufTy).Contents (Elt F) → (⟨S8x1024, .f32⟩ : BufTy).Contents (Elt F)),
    unary main_v2 main_v6 (sitofp .f32 : (⟨S8, .i32⟩ : BufTy).Contents (Elt F) → (⟨S8, .f32⟩ : BufTy).Contents (Elt F)),
    unary main_v6 main_v7 (broadcastInDim S8x1 ![0] bcast_S8_S8x1_0 : (⟨S8, .f32⟩ : BufTy).Contents (Elt F) → (⟨S8x1, .f32⟩ : BufTy).Contents (Elt F)),
    unary main_v7 main_v8 (broadcastInDim S8x1024 ![0, 1] bcast_S8x1_S8x1024_0_1 : (⟨S8x1, .f32⟩ : BufTy).Contents (Elt F) → (⟨S8x1024, .f32⟩ : BufTy).Contents (Elt F)),
    binary main_v5 main_v8 main_v9 (Host.divf : (⟨S8x1024, .f32⟩ : BufTy).Contents (Elt F) → (⟨S8x1024, .f32⟩ : BufTy).Contents (Elt F) → (⟨S8x1024, .f32⟩ : BufTy).Contents (Elt F)),
    unary main_v9 main_v10 (broadcastInDim S8x1024x1 ![0, 1] bcast_S8x1024_S8x1024x1_0_1 : (⟨S8x1024, .f32⟩ : BufTy).Contents (Elt F) → (⟨S8x1024x1, .f32⟩ : BufTy).Contents (Elt F)),
    nullary main_c_0 (constantI S_ 32 0#32),
    nullary main_c_1 (constantI S_ 32 1022#32),
    TRef.unary (.of main_c_0 : TRef sig ⟨S_, .i32⟩) main_call3.v0 id,
    TRef.unary main_call3.v0 main_call3.v1 (broadcastInDim S8x1024 ![] bcast_S_S8x1024),
    TRef.binary main_call3.v1 (.of main_v3 : TRef sig ⟨S8x1024, .i32⟩) main_call3.v2 maxsi,
    TRef.unary (.of main_c_1 : TRef sig ⟨S_, .i32⟩) main_call3.v3 id,
    TRef.unary main_call3.v3 main_call3.v4 (broadcastInDim S8x1024 ![] bcast_S_S8x1024),
    TRef.binary main_call3.v4 main_call3.v2 main_call3.v5 minsi,
    nullary main_c_2 (constantI S_ 32 0#32),
    unary main_c_2 main_v12 (broadcastInDim S8x1024 ![] bcast_S_S8x1024 : (⟨S_, .i32⟩ : BufTy).Contents (Elt F) → (⟨S8x1024, .i32⟩ : BufTy).Contents (Elt F)),
    binary main_v11 main_v12 main_v13 (cmpi .slt : (⟨S8x1024, .i32⟩ : BufTy).Contents (Elt F) → (⟨S8x1024, .i32⟩ : BufTy).Contents (Elt F) → (⟨S8x1024, .i1⟩ : BufTy).Contents (Elt F)),
    nullary main_c_3 (constantI S_ 32 1024#32),
    unary main_c_3 main_v14 (broadcastInDim S8x1024 ![] bcast_S_S8x1024 : (⟨S_, .i32⟩ : BufTy).Contents (Elt F) → (⟨S8x1024, .i32⟩ : BufTy).Contents (Elt F)),
    binary main_v11 main_v14 main_v15 (addi : (⟨S8x1024, .i32⟩ : BufTy).Contents (Elt F) → (⟨S8x1024, .i32⟩ : BufTy).Contents (Elt F) → (⟨S8x1024, .i32⟩ : BufTy).Contents (Elt F)),
    ternary main_v13 main_v15 main_v11 main_v16 (select : (⟨S8x1024, .i1⟩ : BufTy).Contents (Elt F) → (⟨S8x1024, .i32⟩ : BufTy).Contents (Elt F) → (⟨S8x1024, .i32⟩ : BufTy).Contents (Elt F) → (⟨S8x1024, .i32⟩ : BufTy).Contents (Elt F)),
    unary main_v16 main_v17 (broadcastInDim S8x1024x1 ![0, 1] bcast_S8x1024_S8x1024x1_0_1 : (⟨S8x1024, .i32⟩ : BufTy).Contents (Elt F) → (⟨S8x1024x1, .i32⟩ : BufTy).Contents (Elt F)),
    binary main_v1 main_v17 main_v18 ((fun x i => Host.gather gather_S8x22x1024x512_S8x1024x1_S8x22x1024x512_13_2_0_0_2_2_1221512 x i) : (⟨S8x22x1024x512, .f32⟩ : BufTy).Contents (Elt F) → (⟨S8x1024x1, .i32⟩ : BufTy).Contents (Elt F) → (⟨S8x22x1024x512, .f32⟩ : BufTy).Contents (Elt F)),
    nullary main_c_4 (constantI S_ 32 1#32),
    unary main_c_4 main_v19 (broadcastInDim S8x1024 ![] bcast_S_S8x1024 : (⟨S_, .i32⟩ : BufTy).Contents (Elt F) → (⟨S8x1024, .i32⟩ : BufTy).Contents (Elt F)),
    binary main_v11 main_v19 main_v20 (addi : (⟨S8x1024, .i32⟩ : BufTy).Contents (Elt F) → (⟨S8x1024, .i32⟩ : BufTy).Contents (Elt F) → (⟨S8x1024, .i32⟩ : BufTy).Contents (Elt F)),
    nullary main_c_5 (constantI S_ 32 0#32),
    unary main_c_5 main_v21 (broadcastInDim S8x1024 ![] bcast_S_S8x1024 : (⟨S_, .i32⟩ : BufTy).Contents (Elt F) → (⟨S8x1024, .i32⟩ : BufTy).Contents (Elt F)),
    binary main_v20 main_v21 main_v22 (cmpi .slt : (⟨S8x1024, .i32⟩ : BufTy).Contents (Elt F) → (⟨S8x1024, .i32⟩ : BufTy).Contents (Elt F) → (⟨S8x1024, .i1⟩ : BufTy).Contents (Elt F)),
    nullary main_c_6 (constantI S_ 32 1024#32),
    unary main_c_6 main_v23 (broadcastInDim S8x1024 ![] bcast_S_S8x1024 : (⟨S_, .i32⟩ : BufTy).Contents (Elt F) → (⟨S8x1024, .i32⟩ : BufTy).Contents (Elt F)),
    binary main_v20 main_v23 main_v24 (addi : (⟨S8x1024, .i32⟩ : BufTy).Contents (Elt F) → (⟨S8x1024, .i32⟩ : BufTy).Contents (Elt F) → (⟨S8x1024, .i32⟩ : BufTy).Contents (Elt F)),
    ternary main_v22 main_v24 main_v20 main_v25 (select : (⟨S8x1024, .i1⟩ : BufTy).Contents (Elt F) → (⟨S8x1024, .i32⟩ : BufTy).Contents (Elt F) → (⟨S8x1024, .i32⟩ : BufTy).Contents (Elt F) → (⟨S8x1024, .i32⟩ : BufTy).Contents (Elt F)),
    unary main_v25 main_v26 (broadcastInDim S8x1024x1 ![0, 1] bcast_S8x1024_S8x1024x1_0_1 : (⟨S8x1024, .i32⟩ : BufTy).Contents (Elt F) → (⟨S8x1024x1, .i32⟩ : BufTy).Contents (Elt F)),
    binary main_v1 main_v26 main_v27 ((fun x i => Host.gather gather_S8x22x1024x512_S8x1024x1_S8x22x1024x512_13_2_0_0_2_2_1221512 x i) : (⟨S8x22x1024x512, .f32⟩ : BufTy).Contents (Elt F) → (⟨S8x1024x1, .i32⟩ : BufTy).Contents (Elt F) → (⟨S8x22x1024x512, .f32⟩ : BufTy).Contents (Elt F)),
    binary main_v27 main_v18 main_v28 (subf : (⟨S8x22x1024x512, .f32⟩ : BufTy).Contents (Elt F) → (⟨S8x22x1024x512, .f32⟩ : BufTy).Contents (Elt F) → (⟨S8x22x1024x512, .f32⟩ : BufTy).Contents (Elt F)),
    unary main_v10 main_v29 (broadcastInDim S8x1x1024x1 ![0, 2, 3] bcast_S8x1024x1_S8x1x1024x1_0_2_3 : (⟨S8x1024x1, .f32⟩ : BufTy).Contents (Elt F) → (⟨S8x1x1024x1, .f32⟩ : BufTy).Contents (Elt F)),
    unary main_v29 main_v30 (broadcastInDim S8x22x1024x512 ![0, 1, 2, 3] bcast_S8x1x1024x1_S8x22x1024x512_0_1_2_3 : (⟨S8x1x1024x1, .f32⟩ : BufTy).Contents (Elt F) → (⟨S8x22x1024x512, .f32⟩ : BufTy).Contents (Elt F)),
    binary main_v30 main_v28 main_v31 (mulf : (⟨S8x22x1024x512, .f32⟩ : BufTy).Contents (Elt F) → (⟨S8x22x1024x512, .f32⟩ : BufTy).Contents (Elt F) → (⟨S8x22x1024x512, .f32⟩ : BufTy).Contents (Elt F)),
    binary main_v18 main_v31 main_v32 (addf : (⟨S8x22x1024x512, .f32⟩ : BufTy).Contents (Elt F) → (⟨S8x22x1024x512, .f32⟩ : BufTy).Contents (Elt F) → (⟨S8x22x1024x512, .f32⟩ : BufTy).Contents (Elt F)),
    nullary main_c_7 (constantI S_ 32 1#32),
    unary main_c_7 main_v33 (broadcastInDim S8 ![] bcast_S_S8 : (⟨S_, .i32⟩ : BufTy).Contents (Elt F) → (⟨S8, .i32⟩ : BufTy).Contents (Elt F)),
    binary main_arg1 main_v33 main_v34 (subi : (⟨S8, .i32⟩ : BufTy).Contents (Elt F) → (⟨S8, .i32⟩ : BufTy).Contents (Elt F) → (⟨S8, .i32⟩ : BufTy).Contents (Elt F)),
    unary main_v34 main_v35 (broadcastInDim S8x1 ![0] bcast_S8_S8x1_0 : (⟨S8, .i32⟩ : BufTy).Contents (Elt F) → (⟨S8x1, .i32⟩ : BufTy).Contents (Elt F)),
    unary main_v35 main_v36 (broadcastInDim S8x1024 ![0, 1] bcast_S8x1_S8x1024_0_1 : (⟨S8x1, .i32⟩ : BufTy).Contents (Elt F) → (⟨S8x1024, .i32⟩ : BufTy).Contents (Elt F)),
    binary main_v3 main_v36 main_v37 (cmpi .slt : (⟨S8x1024, .i32⟩ : BufTy).Contents (Elt F) → (⟨S8x1024, .i32⟩ : BufTy).Contents (Elt F) → (⟨S8x1024, .i1⟩ : BufTy).Contents (Elt F)),
    unary main_v37 main_v38 (broadcastInDim S8x1024x1 ![0, 1] bcast_S8x1024_S8x1024x1_0_1 : (⟨S8x1024, .i1⟩ : BufTy).Contents (Elt F) → (⟨S8x1024x1, .i1⟩ : BufTy).Contents (Elt F)),
    nullary main_cst (constant S_ .f32 0x00000000#32),
    TRef.unary (.of main_v38 : TRef sig ⟨S8x1024x1, .i1⟩) main_call4.v0 (broadcastInDim S8x1024x512 ![0, 1, 2] bcast_S8x1024x1_S8x1024x512_0_1_2),
    TRef.unary (.of main_cst : TRef sig ⟨S_, .f32⟩) main_call4.v1 (broadcastInDim S1024x512 ![] bcast_S_S1024x512),
    TRef.unary main_call4.v0 main_call4.v2 (broadcastInDim S8x22x1024x512 ![0, 2, 3] bcast_S8x1024x512_S8x22x1024x512_0_2_3),
    TRef.unary main_call4.v1 main_call4.v3 (broadcastInDim S22x1024x512 ![1, 2] bcast_S1024x512_S22x1024x512_1_2),
    TRef.unary main_call4.v3 main_call4.v4 (broadcastInDim S8x22x1024x512 ![1, 2, 3] bcast_S22x1024x512_S8x22x1024x512_1_2_3),
    TRef.ternary main_call4.v2 (.of main_v32 : TRef sig ⟨S8x22x1024x512, .f32⟩) main_call4.v4 main_call4.v5 select ]

set_option maxRecDepth 16384 in
/-- The computation as written is the list carried out in order: with each called function replaced by
    its steps and each call's arrays named, both sides are the same chain of steps once the grouping of
    the sequencing is normalised. -/
theorem main_eq (c : Dev nD) : main (F := F) c = seq ops := by
  simp only [main, fn_floor_divide.body, fn_floor_divide_0.body, fn_remainder.body, fn_clip.body, fn_where.body,
    fn_where_1.body, fn_where_2.body, fn_where_3.body, seq, bind_assoc, pure_bind]

end Cert.ReferenceIdeal.Hand

end
-- ==== Proof.RefRun.lean ====
/-
  What carrying out the reference computation leaves in memory.

  The computation is a list of array operations (the list of the preceding module), each reading some
  arrays and writing one array of its own.  Started from any memory, it therefore always finishes, and
  every array then holds what the operations, applied one after another to the starting contents, put
  there.  No operation writes either of the two input arrays, so they end as they began; the result
  array ends at the value the whole chain computes from them.
-/
import proofs.«427860_j52862457479597_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every array lives for the whole computation: none is set aside for a part of it only. -/
theorem scopedRefs_eq : (Finset.univ.filter fun b : Ref sig .tc => b.isScoped) = ∅ := by decide
/-- Likewise no counter is set aside for a part of the computation only. -/
theorem scopedSems_eq : (Finset.univ.filter fun sm : SemLoc sig => sm.isScoped .tc) = ∅ := by decide

/-- Each operation touches only arrays of the one processor that runs the computation: one fact per
    operation, in the list's order, by the number of arrays the operation reads. -/
theorem ops_sub : (ops : List (HloOp τ sig (Elt F))).Forall fun op => op.bufs ⊆ tcRefs τ sig :=
  ⟨nullary_bufs_sub .., unary_bufs_sub .., nullary_bufs_sub .., unary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., unary_bufs_sub .., unary_bufs_sub .., unary_bufs_sub .., unary_bufs_sub ..,
    binary_bufs_sub .., unary_bufs_sub .., unary_bufs_sub .., unary_bufs_sub .., unary_bufs_sub .., unary_bufs_sub ..,
    unary_bufs_sub .., binary_bufs_sub .., unary_bufs_sub .., unary_bufs_sub .., unary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., ternary_bufs_sub .., unary_bufs_sub .., unary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., unary_bufs_sub ..,
    unary_bufs_sub .., binary_bufs_sub .., binary_bufs_sub .., unary_bufs_sub .., unary_bufs_sub .., binary_bufs_sub ..,
    ternary_bufs_sub .., unary_bufs_sub .., unary_bufs_sub .., unary_bufs_sub .., unary_bufs_sub .., binary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., unary_bufs_sub .., unary_bufs_sub .., binary_bufs_sub .., binary_bufs_sub .., nullary_bufs_sub ..,
    unary_bufs_sub .., binary_bufs_sub .., unary_bufs_sub .., unary_bufs_sub .., binary_bufs_sub .., unary_bufs_sub ..,
    nullary_bufs_sub .., unary_bufs_sub .., unary_bufs_sub .., unary_bufs_sub .., unary_bufs_sub .., unary_bufs_sub ..,
    ternary_bufs_sub ..⟩

set_option maxRecDepth 16384 in
/-- The first input is written by no operation, so it holds afterwards what it held before. -/
theorem arg0_eq (V : Valuation τ sig (Elt F)) :
    after ops V (main_arg0 : DevRef τ sig) = V (main_arg0 : DevRef τ sig) := by
  simp only [after_cons, after_nil]
  rfl

set_option maxRecDepth 16384 in
/-- The second input likewise. -/
theorem arg1_eq (V : Valuation τ sig (Elt F)) :
    after ops V (main_arg1 : DevRef τ sig) = V (main_arg1 : DevRef τ sig) := by
  simp only [after_cons, after_nil]
  rfl

/-- For any float values, from any memory with every counter at zero: every fair execution of the
    computation finishes, and each array then holds what the operations in order make of the starting
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The same read at the three arrays that matter: the result holds the chain's value of the starting
    contents, and the two inputs are unchanged. -/
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = after ops (launchContents m c) (main_v39 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h c main_v39, (h c main_arg0).trans (arg0_eq _), (h c main_arg1).trans (arg1_eq _)⟩)
    (run_main m ρ)

end Cert.ReferenceIdeal.Hand

end
-- ==== Proof.RefLemmas.lean ====
/-
  Reading the reference's array operations at one entry.

  The reference works on whole arrays.  Each of its layout operations, read at a single entry, is a plain
  re-indexing of its operand.  This module states those re-indexings for the shapes that occur: the spreading of a
  vector or a table over new axes, the swap of the row and vertex axes, and the batched row read, which at entry
  (b, v, t, c) reads row idx[b, t] of batch b of its operand at vertex v and channel c, provided the index word
  read as a signed number lies inside the row range, so that the read is not clamped.  It also records the range
  facts about the clipped row index that make that proviso hold: a word clipped into [0, T - 2] is not negative,
  neither is its successor, so the "add T where negative" correction never fires, and both name rows below T.
-/
import proofs.«427860_j52862457479597_2_alg».proof.ReferenceIdeal
import proofs.«427860_j52862457479597_2_alg».proof.Proof.Gen.ReferenceIdeal
import proofs.«427860_j52862457479597_2_alg».proof.Proof.Spec
import Idealize.ShloMosaic.Lib.ValueIdx
import Idealize.ShloMosaic.Lib.Pipeline.Value
import Idealize.ShloMosaic.Lib.IdealHost

noncomputable section

namespace Cert.ReferenceIdeal.HandRead

open Cert.ReferenceIdeal Cert.ReferenceIdeal.Gen Cert.Interp Idealize.ShloMosaic Idealize.ShloMosaic.ValueIdx

section Spread
variable {α : Type}

theorem rows1_apply (h : S1024.BroadcastsInDim S1x1024 ![1]) (x : S1024.Idx → α) (t : Fin 1024) :
    broadcastInDim S1x1024 ![1] h x (ix2 (0 : Fin 1) t) = x (ix1 t) :=
  broadcastInDim_apply _ _ _ _ _ fun a => by match a with | ⟨0, _⟩ => rfl

theorem col1_apply (h : S8.BroadcastsInDim S8x1 ![0]) (x : S8.Idx → α) (b : Fin 8) :
    broadcastInDim S8x1 ![0] h x (ix2 b (0 : Fin 1)) = x (ix1 b) :=
  broadcastInDim_apply _ _ _ _ _ fun a => by match a with | ⟨0, _⟩ => rfl

theorem rowsAll_apply (h : S1x1024.BroadcastsInDim S8x1024 ![0, 1]) (x : S1x1024.Idx → α) (b : Fin 8) (t : Fin 1024) :
    broadcastInDim S8x1024 ![0, 1] h x (ix2 b t) = x (ix2 (0 : Fin 1) t) :=
  broadcastInDim_apply _ _ _ _ _ fun a => by match a with | ⟨0, _⟩ => rfl | ⟨1, _⟩ => rfl

theorem colsAll_apply (h : S8x1.BroadcastsInDim S8x1024 ![0, 1]) (x : S8x1.Idx → α) (b : Fin 8) (t : Fin 1024) :
    broadcastInDim S8x1024 ![0, 1] h x (ix2 b t) = x (ix2 b (0 : Fin 1)) :=
  broadcastInDim_apply _ _ _ _ _ fun a => by match a with | ⟨0, _⟩ => rfl | ⟨1, _⟩ => rfl

theorem unitC_apply (h : S8x1024.BroadcastsInDim S8x1024x1 ![0, 1]) (x : S8x1024.Idx → α) (b : Fin 8) (t : Fin 1024) :
    broadcastInDim S8x1024x1 ![0, 1] h x (ix3 b t (0 : Fin 1)) = x (ix2 b t) :=
  broadcastInDim_apply _ _ _ _ _ fun a => by match a with | ⟨0, _⟩ => rfl | ⟨1, _⟩ => rfl

theorem unitV_apply (h : S8x1024x1.BroadcastsInDim S8x1x1024x1 ![0, 2, 3]) (x : S8x1024x1.Idx → α) (b : Fin 8) (t : Fin 1024) :
    broadcastInDim S8x1x1024x1 ![0, 2, 3] h x (ix4 b (0 : Fin 1) t (0 : Fin 1)) = x (ix3 b t (0 : Fin 1)) :=
  broadcastInDim_apply _ _ _ _ _ fun a => by match a with | ⟨0, _⟩ => rfl | ⟨1, _⟩ => rfl | ⟨2, _⟩ => rfl

theorem full_apply (h : S8x1x1024x1.BroadcastsInDim S8x22x1024x512 ![0, 1, 2, 3]) (x : S8x1x1024x1.Idx → α)
    (b : Fin 8) (v : Fin 22) (t : Fin 1024) (c : Fin 512) :
    broadcastInDim S8x22x1024x512 ![0, 1, 2, 3] h x (ix4 b v t c) = x (ix4 b (0 : Fin 1) t (0 : Fin 1)) :=
  broadcastInDim_apply _ _ _ _ _ fun a => by match a with | ⟨0, _⟩ => rfl | ⟨1, _⟩ => rfl | ⟨2, _⟩ => rfl | ⟨3, _⟩ => rfl

theorem chan_apply (h : S8x1024x1.BroadcastsInDim S8x1024x512 ![0, 1, 2]) (x : S8x1024x1.Idx → α)
    (b : Fin 8) (t : Fin 1024) (c : Fin 512) :
    broadcastInDim S8x1024x512 ![0, 1, 2] h x (ix3 b t c) = x (ix3 b t (0 : Fin 1)) :=
  broadcastInDim_apply _ _ _ _ _ fun a => by match a with | ⟨0, _⟩ => rfl | ⟨1, _⟩ => rfl | ⟨2, _⟩ => rfl

theorem vert_apply (h : S8x1024x512.BroadcastsInDim S8x22x1024x512 ![0, 2, 3]) (x : S8x1024x512.Idx → α)
    (b : Fin 8) (v : Fin 22) (t : Fin 1024) (c : Fin 512) :
    broadcastInDim S8x22x1024x512 ![0, 2, 3] h x (ix4 b v t c) = x (ix3 b t c) :=
  broadcastInDim_apply _ _ _ _ _ fun a => by match a with | ⟨0, _⟩ => rfl | ⟨1, _⟩ => rfl | ⟨2, _⟩ => rfl

end Spread

abbrev rowRead : GatherDims S8x22x1024x512 S8x1024x1 S8x22x1024x512 :=
  gather_S8x22x1024x512_S8x1024x1_S8x22x1024x512_13_2_0_0_2_2_1221512

theorem rowRead_ax0 {w : Nat} (j : S8x22x1024x512.Idx) (idx : IVec S8x1024x1 w) :
    (rowRead.operandIdx j idx 0).val = (j 0).val := by
  show rowRead.start j idx 0 + rowRead.batchCoord j 0 + rowRead.offCoord j 0 = _
  rw [GatherDims.start_batching _ _ _ _ (by decide), GatherDims.offCoord_eq_zero _ _ _ (by decide)]
  unfold GatherDims.batchCoord
  rw [dif_pos (by decide)]
  unfold GatherDims.siCoord
  simp only [Fin.val_cast, Nat.zero_add, Nat.add_zero]
  rfl

theorem rowRead_ax1 {w : Nat} (j : S8x22x1024x512.Idx) (idx : IVec S8x1024x1 w) :
    (rowRead.operandIdx j idx 1).val = (j 1).val := by
  show rowRead.start j idx 1 + rowRead.batchCoord j 1 + rowRead.offCoord j 1 = _
  rw [GatherDims.batchCoord_eq_zero _ _ _ (by decide)]
  unfold GatherDims.start GatherDims.offCoord
  rw [dif_neg (by decide), dif_pos (by decide)]
  simp only [Nat.zero_add, Nat.add_zero]
  rfl

theorem rowRead_ax3 {w : Nat} (j : S8x22x1024x512.Idx) (idx : IVec S8x1024x1 w) :
    (rowRead.operandIdx j idx 3).val = (j 3).val := by
  show rowRead.start j idx 3 + rowRead.batchCoord j 3 + rowRead.offCoord j 3 = _
  rw [GatherDims.batchCoord_eq_zero _ _ _ (by decide)]
  unfold GatherDims.start GatherDims.offCoord
  rw [dif_neg (by decide), dif_pos (by decide)]
  simp only [Nat.zero_add, Nat.add_zero]
  rfl

theorem rowRead_siIdx (b : Fin 8) (v : Fin 22) (t : Fin 1024) (c : Fin 512) (k : Fin rowRead.startIndexMap.length) :
    rowRead.siIdx (ix4 b v t c) k = ix3 b t (0 : Fin 1) := by
  funext a
  refine Fin.ext ?_
  match a with
  | ⟨0, _⟩ => rfl
  | ⟨1, _⟩ => rfl
  | ⟨2, _⟩ =>
    have : k.val < 1 := k.isLt
    show k.val = 0
    omega

theorem rowRead_ax2 {w : Nat} (b : Fin 8) (v : Fin 22) (t : Fin 1024) (c : Fin 512) (idx : IVec S8x1024x1 w) :
    (rowRead.operandIdx (ix4 b v t c) idx 2).val = min (idx (ix3 b t (0 : Fin 1))).toInt.toNat 1023 := by
  show rowRead.start (ix4 b v t c) idx 2 + rowRead.batchCoord (ix4 b v t c) 2 + rowRead.offCoord (ix4 b v t c) 2 = _
  rw [GatherDims.batchCoord_eq_zero _ _ _ (by decide), GatherDims.offCoord_eq_zero _ _ _ (by decide)]
  unfold GatherDims.start
  rw [dif_pos (by decide), rowRead_siIdx]
  rfl

/-- A word that, read signed, lies in [0, 1023] names the row of that number. -/
theorem rowOf_val (w : BitVec 32) (h0 : 0 ≤ w.toInt) (h1 : w.toInt ≤ 1023) : (rowOf w).val = min w.toInt.toNat 1023 := by
  have hlt : w.toNat < 2 ^ 32 := w.isLt
  have h := BitVec.toInt_eq_toNat_cond w
  show w.toNat % 1024 = _
  split at h <;> omega

theorem rowRead_apply {α : Type} (x : S8x22x1024x512.Idx → α) (idx : IVec S8x1024x1 32)
    (b : Fin 8) (v : Fin 22) (t : Fin 1024) (c : Fin 512)
    (h0 : 0 ≤ (idx (ix3 b t (0 : Fin 1))).toInt) (h1 : (idx (ix3 b t (0 : Fin 1))).toInt ≤ 1023) :
    Host.gather rowRead x idx (ix4 b v t c) = x (ix4 b v (rowOf (idx (ix3 b t (0 : Fin 1)))) c) := by
  unfold Host.gather
  congr 1
  funext a
  refine Fin.ext ?_
  match a with
  | ⟨0, _⟩ => exact rowRead_ax0 _ _
  | ⟨1, _⟩ => exact rowRead_ax1 _ _
  | ⟨2, _⟩ => exact (rowRead_ax2 b v t c idx).trans (rowOf_val _ h0 h1).symm
  | ⟨3, _⟩ => exact rowRead_ax3 _ _

/-! ## Range facts about words -/

/-- Clipping a word into [0, 1022]: the result, read signed, lies in that range. -/
theorem clip_range (s : BitVec 32) :
    0 ≤ (IntOp.minsi 1022#32 (IntOp.maxsi 0#32 s)).toInt ∧ (IntOp.minsi 1022#32 (IntOp.maxsi 0#32 s)).toInt ≤ 1022 := by
  unfold IntOp.minsi IntOp.maxsi
  have e0 : (0#32 : BitVec 32).toInt = 0 := by decide
  have e1 : (1022#32 : BitVec 32).toInt = 1022 := by decide
  simp only [BitVec.slt]
  split_ifs <;> simp_all <;> omega

/-- The clipped source row lies in [0, 1022]. -/
theorem rowW_range (L t : BitVec 32) : 0 ≤ (rowW L t).toInt ∧ (rowW L t).toInt ≤ 1022 := clip_range _

/-- A word that is not negative fails the test "below zero". -/
theorem slt_zero_of_nonneg (w : BitVec 32) (h : 0 ≤ w.toInt) : IntOp.cmpi .slt w 0#32 = 0#1 := by
  have e0 : (0#32 : BitVec 32).toInt = 0 := by decide
  have : w.slt 0#32 = false := by
    simp only [BitVec.slt, e0, decide_eq_false_iff_not]
    omega
  show BitVec.ofBool (w.slt 0#32) = 0#1
  rw [this]
  rfl

/-- The correction "add T where negative" leaves a word that is not negative alone. -/
theorem wrap_of_nonneg (w : BitVec 32) (h : 0 ≤ w.toInt) :
    Scalar.select (IntOp.cmpi .slt w 0#32) (IntOp.addi w 1024#32) w = w := by
  rw [slt_zero_of_nonneg w h]
  exact select_zero _ _

/-- The successor of a word in [0, 1022] lies in [1, 1023]. -/
theorem succ_range (w : BitVec 32) (h0 : 0 ≤ w.toInt) (h1 : w.toInt ≤ 1022) :
    0 ≤ (IntOp.addi w 1#32).toInt ∧ (IntOp.addi w 1#32).toInt ≤ 1023 := by
  unfold IntOp.addi
  have hw := BitVec.toInt_eq_toNat_cond w
  have hs := BitVec.toInt_eq_toNat_cond (w + 1#32)
  have ha : (w + 1#32).toNat = (w.toNat + 1) % 2 ^ 32 := by simp [BitVec.toNat_add]
  have hlt : w.toNat < 2 ^ 32 := w.isLt
  split at hw <;> split at hs <;> omega

end Cert.ReferenceIdeal.HandRead

end
-- ==== Proof.RefStages.lean ====
/-
  The reference's computation as named stages.

  Each stage is an array built from the two inputs by the same elementary steps, in the same order, as the
  reference carries out: the stride T div L, the source row t div stride, the position t mod stride, the blending
  ratio, the clipped row, the two row reads, the blend, the liveness test and the final choice.
-/
import proofs.«427860_j52862457479597_2_alg».proof.Proof.RefOps
import proofs.«427860_j52862457479597_2_alg».proof.Proof.RefLemmas
import Idealize.ShloMosaic.Lib.StableHlo.Run

noncomputable section

namespace Cert.ReferenceIdeal.HandRead

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

section Spread
variable {α : Type}

/-- A scalar spread over the batch axis. -/
abbrev onB (x : S_.Idx → α) : S8.Idx → α := broadcastInDim S8 ![] bcast_S_S8 x
/-- A scalar spread over the (batch, row) table. -/
abbrev onBT (x : S_.Idx → α) : S8x1024.Idx → α := broadcastInDim S8x1024 ![] bcast_S_S8x1024 x
/-- A per-row vector spread over the batches. -/
abbrev rowsT (x : S1024.Idx → α) : S8x1024.Idx → α :=
  broadcastInDim S8x1024 ![0, 1] bcast_S1x1024_S8x1024_0_1 (broadcastInDim S1x1024 ![1] bcast_S1024_S1x1024_1 x)
/-- A per-batch vector spread over the rows. -/
abbrev colsB (x : S8.Idx → α) : S8x1024.Idx → α :=
  broadcastInDim S8x1024 ![0, 1] bcast_S8x1_S8x1024_0_1 (broadcastInDim S8x1 ![0] bcast_S8_S8x1_0 x)
/-- A (batch, row) table with a unit axis appended. -/
abbrev unitC (x : S8x1024.Idx → α) : S8x1024x1.Idx → α := broadcastInDim S8x1024x1 ![0, 1] bcast_S8x1024_S8x1024x1_0_1 x

end Spread

/-- The row counter 0, 1, …, T - 1. -/
def rowsA : IVec S1024 32 := iotaInDim S1024 32 0

/-- The stride T div L per batch. -/
def stepA (L : IVec S8 32) : IVec S8 32 :=
  select
    (andi (cmpi .ne (onB (signi (id (constantI S_ 32 1024#32)))) (signi L))
      (cmpi .ne (Host.remsi (onB (id (constantI S_ 32 1024#32))) L) (onB (constantI S_ 32 0#32))))
    (subi (Host.divsi (onB (id (constantI S_ 32 1024#32))) L) (onB (constantI S_ 32 1#32)))
    (Host.divsi (onB (id (constantI S_ 32 1024#32))) L)

/-- The source row t div stride, per (batch, row). -/
def srcA (st : IVec S8 32) : IVec S8x1024 32 :=
  select
    (andi (cmpi .ne (rowsT (signi rowsA)) (colsB (signi st)))
      (cmpi .ne (Host.remsi (rowsT rowsA) (colsB st)) (onBT (constantI S_ 32 0#32))))
    (subi (Host.divsi (rowsT rowsA) (colsB st)) (onBT (constantI S_ 32 1#32)))
    (Host.divsi (rowsT rowsA) (colsB st))

/-- The divisor of the remainder: one in place of a zero stride. -/
def safeA (st : IVec S8 32) : IVec S8 32 :=
  select (cmpi .eq st (onB (constantI S_ 32 0#32))) (onB (constantI S_ 32 1#32)) st

/-- The truncated remainder of the row counter by the safe divisor. -/
def remA (st : IVec S8 32) : IVec S8x1024 32 := Host.remsi (rowsT rowsA) (colsB (safeA st))

/-- The position t mod stride, per (batch, row). -/
def subA (st : IVec S8 32) : IVec S8x1024 32 :=
  select
    (andi
      (cmpi .ne (cmpi .slt (remA st) (onBT (constantI S_ 32 0#32)))
        (colsB (cmpi .slt (safeA st) (onB (constantI S_ 32 0#32)))))
      (cmpi .ne (remA st) (onBT (constantI S_ 32 0#32))))
    (addi (remA st) (colsB (safeA st)))
    (remA st)

/-- The blending ratio (t mod stride) / stride, with a unit axis appended. -/
def ratioA (st : IVec S8 32) : FVec F S8x1024x1 .f32 :=
  unitC (Host.divf (sitofp .f32 (subA st)) (colsB (sitofp .f32 st)))

/-- The source row clipped into [0, T - 2]. -/
def clipA (src : IVec S8x1024 32) : IVec S8x1024 32 :=
  minsi (onBT (id (constantI S_ 32 1022#32))) (maxsi (onBT (id (constantI S_ 32 0#32))) src)

/-- A row index moved into range by adding T where it is negative, with a unit axis appended. -/
def wrapA (ic : IVec S8x1024 32) : IVec S8x1024x1 32 :=
  unitC (select (cmpi .slt ic (onBT (constantI S_ 32 0#32))) (addi ic (onBT (constantI S_ 32 1024#32))) ic)

/-- The input with its row axis moved behind the vertex axis. -/
def keyTA (key : FVec F S8x1024x22x512 .f32) : FVec F S8x22x1024x512 .f32 :=
  transpose S8x22x1024x512 [0, 2, 1, 3] key transposes_S8x1024x22x512_S8x22x1024x512_0_2_1_3

/-- The first row read. -/
def loA (key : FVec F S8x1024x22x512 .f32) (ic : IVec S8x1024 32) : FVec F S8x22x1024x512 .f32 :=
  Host.gather rowRead (keyTA key) (wrapA ic)

/-- The second row read, one row further. -/
def hiA (key : FVec F S8x1024x22x512 .f32) (ic : IVec S8x1024 32) : FVec F S8x22x1024x512 .f32 :=
  Host.gather rowRead (keyTA key) (wrapA (addi ic (onBT (constantI S_ 32 1#32))))

/-- The ratio spread over vertices and channels. -/
def ratioFull (r : FVec F S8x1024x1 .f32) : FVec F S8x22x1024x512 .f32 :=
  broadcastInDim S8x22x1024x512 ![0, 1, 2, 3] bcast_S8x1x1024x1_S8x22x1024x512_0_1_2_3
    (broadcastInDim S8x1x1024x1 ![0, 2, 3] bcast_S8x1024x1_S8x1x1024x1_0_2_3 r)

/-- The blend a + ratio * (b - a). -/
def blendA (key : FVec F S8x1024x22x512 .f32) (st : IVec S8 32) (ic : IVec S8x1024 32) : FVec F S8x22x1024x512 .f32 :=
  addf (loA key ic) (mulf (ratioFull (ratioA st)) (subf (hiA key ic) (loA key ic)))

/-- The liveness test source row < L - 1, with a unit axis appended. -/
def liveA (L : IVec S8 32) (src : IVec S8x1024 32) : IVec S8x1024x1 1 :=
  unitC (cmpi .slt src (colsB (subi L (onB (constantI S_ 32 1#32)))))

/-- The liveness test spread over vertices and channels. -/
def liveFull (m : IVec S8x1024x1 1) : IVec S8x22x1024x512 1 :=
  broadcastInDim S8x22x1024x512 ![0, 2, 3] bcast_S8x1024x512_S8x22x1024x512_0_2_3
    (broadcastInDim S8x1024x512 ![0, 1, 2] bcast_S8x1024x1_S8x1024x512_0_1_2 m)

/-- Zero spread over the whole result. -/
def zeroFull : FVec F S8x22x1024x512 .f32 :=
  broadcastInDim S8x22x1024x512 ![1, 2, 3] bcast_S22x1024x512_S8x22x1024x512_1_2_3
    (broadcastInDim S22x1024x512 ![1, 2] bcast_S1024x512_S22x1024x512_1_2
      (broadcastInDim S1024x512 ![] bcast_S_S1024x512 (constant S_ .f32 0x00000000#32)))

/-- The reference's result as a function of its two inputs. -/
def resultA (key : FVec F S8x1024x22x512 .f32) (L : IVec S8 32) : FVec F S8x22x1024x512 .f32 :=
  select (liveFull (liveA L (srcA (stepA L)))) (blendA key (stepA L) (clipA (srcA (stepA L)))) zeroFull

/-! ## The list of operations computes the last stage -/

attribute [local irreducible] Host.gather in
set_option maxRecDepth 16384 in
/-- Carried out in order from any starting contents, the operations leave in the result array the last stage
    applied to the two input arrays: each operation's value is looked up at the array it writes, and the
    composed term is the stages' definitions unfolded. -/
theorem result_eq (V : Valuation τ sig (Elt F)) :
    (after ops V (main_v39 : DevRef τ sig) : FVec F S8x22x1024x512 .f32)
      = resultA (V (main_arg0 : DevRef τ sig)) (V (main_arg1 : DevRef τ sig)) := by
  after_results_simp
  simp only [TRef.ofBuf, TRef.toBuf, cast_eq]
  rfl

end Cert.ReferenceIdeal.HandRead

end
-- ==== Proof.RefRead.lean ====
/-
  The reference's result at one entry is the two-row blend.

  Every stage of the reference, read at one entry, is one of the scalar functions of the specification: the
  stride of batch b is the floor quotient T div L[b]; the source row of (b, t) is the floor quotient of t by
  that stride and the position inside the stride the matching remainder; the ratio is their quotient as
  numbers; the clipped row is the source row clipped into [0, T - 2].  Because the clipped row and its successor
  are never negative and stay below T, the two row reads are not clamped and not wrapped: they read exactly
  the rows those two words name.  The result entry is then the blend of the two rows where the source row is
  below L[b] - 1, and zero elsewhere, which is the specification's two-row form.
-/
import proofs.«427860_j52862457479597_2_alg».proof.Proof.RefStages
import proofs.«427860_j52862457479597_2_alg».proof.Proof.RefLemmas
import proofs.«427860_j52862457479597_2_alg».proof.Proof.Spec
import Idealize.ShloMosaic.Lib.StableHlo.Run
import Idealize.ShloMosaic.Lib.ValueIdx
import Idealize.ShloMosaic.Lib.Pipeline.Value

noncomputable section

namespace Cert.ReferenceIdeal.HandRead

open Cert.ReferenceIdeal Cert.ReferenceIdeal.Gen Cert.ReferenceIdeal.Hand Cert.Interp Idealize.ShloMosaic Idealize.ShloMosaic.TcCoe
  Idealize.ShloMosaic.ValueIdx Idealize.SL.Sem Idealize.ShloMosaic.StableHlo

/-! ## The spreads and the axis swap at an entry -/

section Spread
variable {α : Type}

/-- A per-row vector spread over the batches reads, at (b, t), the vector at t. -/
theorem rowsT_apply (x : S1024.Idx → α) (b : Fin 8) (t : Fin 1024) : rowsT x (ix2 b t) = x (ix1 t) :=
  (rowsAll_apply _ _ b t).trans (rows1_apply _ _ t)

/-- A per-batch vector spread over the rows reads, at (b, t), the vector at b. -/
theorem colsB_apply (x : S8.Idx → α) (b : Fin 8) (t : Fin 1024) : colsB x (ix2 b t) = x (ix1 b) :=
  (colsAll_apply _ _ b t).trans (col1_apply _ _ b)

/-- A table with a unit axis appended reads, at (b, t, 0), the table at (b, t). -/
theorem unitC_at (x : S8x1024.Idx → α) (b : Fin 8) (t : Fin 1024) : unitC x (ix3 b t (0 : Fin 1)) = x (ix2 b t) :=
  unitC_apply _ _ b t

/-- The axis swap at an entry. -/
theorem swap_apply (h : S8x1024x22x512.Transposes [0, 2, 1, 3] S8x22x1024x512) (key : S8x1024x22x512.Idx → α)
    (b : Fin 8) (v : Fin 22) (s : Fin 1024) (c : Fin 512) :
    transpose S8x22x1024x512 [0, 2, 1, 3] key h (ix4 b v s c) = key (ix4 b s v c) := by
  refine transpose_apply _ _ _ _ _ ?_
  intro a
  match a with
  | ⟨0, _⟩ => rfl
  | ⟨1, _⟩ => rfl
  | ⟨2, _⟩ => rfl
  | ⟨3, _⟩ => rfl

end Spread

section AnyFloat
variable {F : FTy → Type} [FloatOps F]

theorem keyTA_apply (key : FVec F S8x1024x22x512 .f32) (b : Fin 8) (v : Fin 22) (s : Fin 1024) (c : Fin 512) :
    keyTA key (ix4 b v s c) = key (ix4 b s v c) := swap_apply _ key b v s c

/-- The ratio spread over vertices and channels reads, at (b, v, t, c), the ratio at (b, t, 0). -/
theorem ratioFull_apply (r : FVec F S8x1024x1 .f32) (b : Fin 8) (v : Fin 22) (t : Fin 1024) (c : Fin 512) :
    ratioFull r (ix4 b v t c) = r (ix3 b t (0 : Fin 1)) :=
  (full_apply _ _ b v t c).trans (unitV_apply _ _ b t)

end AnyFloat

/-- The liveness test spread over vertices and channels reads, at (b, v, t, c), the test at (b, t, 0). -/
theorem liveFull_apply (m : IVec S8x1024x1 1) (b : Fin 8) (v : Fin 22) (t : Fin 1024) (c : Fin 512) :
    liveFull m (ix4 b v t c) = m (ix3 b t (0 : Fin 1)) :=
  (vert_apply _ _ b v t c).trans (chan_apply _ _ b t c)

/-! ## The integer stages at an entry -/

/-- The stride of batch b. -/
theorem stepA_apply (L : IVec S8 32) (b : Fin 8) : stepA L (ix1 b) = stepW (L (ix1 b)) := rfl

/-- The source row of (b, t): the floor quotient of t by the batch's stride. -/
theorem srcA_apply (st : IVec S8 32) (b : Fin 8) (t : Fin 1024) : srcA st (ix2 b t) = fdivW (wd t) (st (ix1 b)) := by
  show Scalar.select
      (IntOp.andi (IntOp.cmpi .ne (rowsT (signi rowsA) (ix2 b t)) (colsB (signi st) (ix2 b t)))
        (IntOp.cmpi .ne (IntOp.remsi .host (rowsT rowsA (ix2 b t)) (colsB st (ix2 b t))) 0#32))
      (IntOp.subi (IntOp.divsi .host (rowsT rowsA (ix2 b t)) (colsB st (ix2 b t))) 1#32)
      (IntOp.divsi .host (rowsT rowsA (ix2 b t)) (colsB st (ix2 b t))) = _
  rw [rowsT_apply, rowsT_apply, colsB_apply, colsB_apply]
  rfl

/-- The safe divisor of batch b. -/
theorem safeA_apply (st : IVec S8 32) (b : Fin 8) : safeA st (ix1 b) = safeW (st (ix1 b)) := rfl

/-- The truncated remainder of t by the safe divisor. -/
theorem remA_apply (st : IVec S8 32) (b : Fin 8) (t : Fin 1024) :
    remA st (ix2 b t) = IntOp.remsi .host (wd t) (safeW (st (ix1 b))) := by
  show IntOp.remsi .host (rowsT rowsA (ix2 b t)) (colsB (safeA st) (ix2 b t)) = _
  rw [rowsT_apply, colsB_apply]
  rfl

/-- The position of (b, t) inside its stride: the remainder of t by the batch's stride, with the stride's sign. -/
theorem subA_apply (st : IVec S8 32) (b : Fin 8) (t : Fin 1024) : subA st (ix2 b t) = fmodW (wd t) (st (ix1 b)) := by
  show Scalar.select
      (IntOp.andi
        (IntOp.cmpi .ne (IntOp.cmpi .slt (remA st (ix2 b t)) 0#32)
          (colsB (cmpi .slt (safeA st) (onB (constantI S_ 32 0#32))) (ix2 b t)))
        (IntOp.cmpi .ne (remA st (ix2 b t)) 0#32))
      (IntOp.addi (remA st (ix2 b t)) (colsB (safeA st) (ix2 b t)))
      (remA st (ix2 b t)) = _
  rw [remA_apply, colsB_apply, colsB_apply]
  rfl

/-- The clipped row at (b, t). -/
theorem clipA_apply (src : IVec S8x1024 32) (b : Fin 8) (t : Fin 1024) :
    clipA src (ix2 b t) = IntOp.minsi 1022#32 (IntOp.maxsi 0#32 (src (ix2 b t))) := rfl

/-- The liveness test at (b, t, 0). -/
theorem liveA_apply (L : IVec S8 32) (src : IVec S8x1024 32) (b : Fin 8) (t : Fin 1024) :
    liveA L src (ix3 b t (0 : Fin 1)) = IntOp.cmpi .slt (src (ix2 b t)) (IntOp.subi (L (ix1 b)) 1#32) := by
  unfold liveA
  rw [unitC_at]
  show IntOp.cmpi .slt (src (ix2 b t)) (colsB (subi L (onB (constantI S_ 32 1#32))) (ix2 b t)) = _
  rw [colsB_apply]
  rfl

/-- A row index that is not negative is left alone by the wrap-around correction. -/
theorem wrapA_apply (ic : IVec S8x1024 32) (b : Fin 8) (t : Fin 1024) (h0 : 0 ≤ (ic (ix2 b t)).toInt) :
    wrapA ic (ix3 b t (0 : Fin 1)) = ic (ix2 b t) := by
  unfold wrapA
  rw [unitC_at]
  exact wrap_of_nonneg _ h0

/-! ## The row reads and the ratio at an entry -/

section AnyFloat
variable {F : FTy → Type} [FloatOps F]

/-- The first row read at (b, v, t, c), for a row index in [0, T - 1]: the input's row of that number. -/
theorem loA_apply (key : FVec F S8x1024x22x512 .f32) (ic : IVec S8x1024 32) (b : Fin 8) (v : Fin 22) (t : Fin 1024)
    (c : Fin 512) (h0 : 0 ≤ (ic (ix2 b t)).toInt) (h1 : (ic (ix2 b t)).toInt ≤ 1023) :
    loA key ic (ix4 b v t c) = key (ix4 b (rowOf (ic (ix2 b t))) v c) := by
  have hw : wrapA ic (ix3 b t (0 : Fin 1)) = ic (ix2 b t) := wrapA_apply ic b t h0
  unfold loA
  rw [rowRead_apply _ _ b v t c (by rw [hw]; exact h0) (by rw [hw]; exact h1), hw, keyTA_apply]

/-- The second row read at (b, v, t, c), for a row index in [0, T - 2]: the input's next row. -/
theorem hiA_apply (key : FVec F S8x1024x22x512 .f32) (ic : IVec S8x1024 32) (b : Fin 8) (v : Fin 22) (t : Fin 1024)
    (c : Fin 512) (h0 : 0 ≤ (ic (ix2 b t)).toInt) (h1 : (ic (ix2 b t)).toInt ≤ 1022) :
    hiA key ic (ix4 b v t c) = key (ix4 b (rowOf (IntOp.addi (ic (ix2 b t)) 1#32)) v c) :=
  loA_apply key (addi ic (onBT (constantI S_ 32 1#32))) b v t c (succ_range _ h0 h1).1 (succ_range _ h0 h1).2

end AnyFloat

/-- The ratio at (b, t, 0), over the extended reals: position over stride, both read as signed numbers. -/
theorem ratioA_apply (st : IVec S8 32) (b : Fin 8) (t : Fin 1024) :
    ratioA (F := Ideal) st (ix3 b t (0 : Fin 1))
      = Ideal.div (((subA st (ix2 b t)).toInt : ℝ) : EReal) (((st (ix1 b)).toInt : ℝ) : EReal) := by
  unfold ratioA
  rw [unitC_at]
  show Ideal.div (((subA st (ix2 b t)).toInt : ℝ) : EReal) (colsB (sitofp (F := Ideal) .f32 st) (ix2 b t)) = _
  rw [colsB_apply]
  rfl

/-! ## The result at an entry -/

/-- The last stage at (b, v, t, c) is the specification's two-row blend. -/
theorem resultA_apply (key : FVec Ideal S8x1024x22x512 .f32) (L : IVec S8 32) (b : Fin 8) (v : Fin 22) (t : Fin 1024)
    (c : Fin 512) : resultA key L (ix4 b v t c) = blendAt key L b v t c := by
  have hs : srcA (stepA L) (ix2 b t) = srcW (L (ix1 b)) (wd t) := by rw [srcA_apply, stepA_apply]; rfl
  have hc : clipA (srcA (stepA L)) (ix2 b t) = rowW (L (ix1 b)) (wd t) := by rw [clipA_apply, hs]; rfl
  have hr := rowW_range (L (ix1 b)) (wd t)
  have hlo := loA_apply key (clipA (srcA (stepA L))) b v t c (by rw [hc]; exact hr.1) (by rw [hc]; omega)
  have hhi := hiA_apply key (clipA (srcA (stepA L))) b v t c (by rw [hc]; exact hr.1) (by rw [hc]; exact hr.2)
  unfold resultA blendA
  rw [select_apply, addf_apply, mulf_apply, subf_apply, liveFull_apply, liveA_apply, hs, ratioFull_apply, ratioA_apply,
    subA_apply, stepA_apply, hlo, hhi, hc]
  rfl

/-- The reference's result array, read at (b, v, t, c), is the specification's two-row blend of the two inputs. -/
theorem ref_apply (V : Valuation τ sig (Elt Ideal)) (b : Fin 8) (v : Fin 22) (t : Fin 1024) (c : Fin 512) :
    (after ops V (main_v39 : DevRef τ sig) : S8x22x1024x512.Idx → EReal) (ix4 b v t c)
      = blendAt (V (main_arg0 : DevRef τ sig)) (V (main_arg1 : DevRef τ sig)) b v t c := by
  rw [result_eq (F := Ideal) V]
  exact resultA_apply _ _ b v t c

end Cert.ReferenceIdeal.HandRead

end
-- ==== Proof.lean ====
/-
  Stretching a short sequence over a long one by linear interpolation, as ONE matrix product against two gathered rows.

  For each batch entry b with true length L (a 32-bit word, here 1 ≤ L ≤ 1024) and each vertex v, the rows of the
  [1024, 512] sequence key[b, ·, v, ·] are stretched over 1024 output rows with the integer stride step = 1024 div L:
  output row t blends source rows i = t div step and i + 1 with the ratio r = (t mod step) / step, and is zero once
  i reaches L - 1.  One program writes this as the product of a [1024, 1024] weight matrix with the sequence — row t of
  the matrix holds (1 - r) at column i and r at column i + 1, both zeroed where the row is not live, the length clamped
  below by one before the division — and runs the product once per (b, v) on a grid; the other reads the two rows
  directly, forms a + r · (b - a) and selects zero where the row is not live.

  Over the extended reals the two agree where every key entry is a real number and 1 ≤ L ≤ 1024: the clamp does nothing,
  the stride is at least one so the ratio is a real, the clipped row index i_c lies in [0, 1022] so exactly the columns
  i_c and i_c + 1 of a weight row can be nonzero, and (1 - r) · a + r · b = a + r · (b - a) in the reals; a row that is
  not live has every weight zero.  The precondition supplies the two facts (finite key, lengths in range); outside that
  range the integer division by L, or by a zero stride, has no defined value.

  The pieces, one module each: the words and the two entry functions (Spec); the identity between them (Algebra); the
  precondition read as the two facts (PreDecode); the weight matrix and the flattened key as the host prefix leaves them
  (KernelHost); the result array as the product, entry by entry, from the grid's blocks (KernelValue); the reference's
  host program as a list of operations and its run (RefOps, RefRun); its result read at an entry (RefRead).  Here they
  are joined: both runs end with the result array equal to ONE function of the argument arrays.
-/
import proofs.«427860_j52862457479597_2_alg».proof.Defs
import proofs.«427860_j52862457479597_2_alg».proof.Proof.Gen.Kernel
import proofs.«427860_j52862457479597_2_alg».proof.Proof.Gen.Kernel.Skeleton
import proofs.«427860_j52862457479597_2_alg».proof.Proof.Gen.Kernel.Launch
import proofs.«427860_j52862457479597_2_alg».proof.Proof.Gen.Kernel.Points
import proofs.«427860_j52862457479597_2_alg».proof.Proof.Gen.Kernel.Frame
import proofs.«427860_j52862457479597_2_alg».proof.Proof.Gen.KernelIdeal
import proofs.«427860_j52862457479597_2_alg».proof.Proof.Gen.KernelIdeal.Skeleton
import proofs.«427860_j52862457479597_2_alg».proof.Proof.Gen.KernelIdeal.Launch
import proofs.«427860_j52862457479597_2_alg».proof.Proof.Gen.KernelIdeal.Points
import proofs.«427860_j52862457479597_2_alg».proof.Proof.Gen.KernelIdeal.Frame
import proofs.«427860_j52862457479597_2_alg».proof.Proof.Gen.KernelIdeal.Value
import proofs.«427860_j52862457479597_2_alg».proof.Proof.Gen.ReferenceIdeal
import proofs.«427860_j52862457479597_2_alg».proof.Proof.Gen.Pre_finite_inputs
import proofs.«427860_j52862457479597_2_alg».proof.Proof.Spec
import proofs.«427860_j52862457479597_2_alg».proof.Proof.Algebra
import proofs.«427860_j52862457479597_2_alg».proof.Proof.PreDecode
import proofs.«427860_j52862457479597_2_alg».proof.Proof.KernelHost
import proofs.«427860_j52862457479597_2_alg».proof.Proof.KernelValue
import proofs.«427860_j52862457479597_2_alg».proof.Proof.RefRun
import proofs.«427860_j52862457479597_2_alg».proof.Proof.RefRead
import Idealize.ShloMosaic.Lib.StableHlo.Run
import Idealize.ShloMosaic.Adequacy
import Idealize.ShloMosaic.Init

set_option maxRecDepth 16384

noncomputable section

open Idealize.ShloMosaic Idealize.ShloMosaic.TcCoe Idealize.SL.Sem Idealize.ShloMosaic.ValueIdx Cert.Interp

namespace Cert.Interp

/-- A product of two arrays, the first holding the interpolation weights of the clamped lengths and the second the
    key's rows with vertex and channel flattened into one axis, is the weighted sum over the key's rows, entry by entry. -/
theorem matAt_eq_sumAt (x : SFlat.Idx → EReal) (w : SWt.Idx → EReal) (key : SKey.Idx → EReal) (L : SLen.Idx → BitVec 32)
    (b : Fin 8) (v : Fin 22) (t : Fin 1024) (c : Fin 512)
    (hw : ∀ s : Fin 1024, w (ix3 b t s) = weightE (IntOp.maxsi (L (ix1 b)) 1#32) (wd t) (wd s))
    (hx : ∀ s : Fin 1024, x (ix3 b s (colOf v c)) = key (ix4 b s v c)) :
    matAt x w b v t c = sumAt key L b v t c := by
  unfold matAt sumAt
  exact Finset.sum_congr rfl fun s _ => by rw [hw s, hx s]

end Cert.Interp

namespace Cert.Proof

/-- The result array both programs end with on core `c`: the two-row blend of the launch contents, entry by entry. -/
def result (m : (ℓ : Loc Cert.KernelIdeal.nD Cert.KernelIdeal.τ Cert.KernelIdeal.sig) → Buf (Elt Ideal) ℓ) (c : Dev Cert.KernelIdeal.nD) :
    SOut.Idx → EReal :=
  fun j => blendAt (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (j 0) (j 1) (j 2) (j 3)

/-- The three frames: each program runs to the end and leaves its argument arrays as launched. The reference has no
    kernel: its frame is its run with the result forgotten. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Hand.run_args (F := Ideal) m ρ)

/-- Under the precondition the product program's result array is the blend: the array is the product of the weight
    matrix with the flattened key, entry by entry; those two arrays hold the weights of the clamped lengths and the
    key's rows; and the weighted sum is the blend where the key is finite and the lengths lie in [1, 1024]. -/
theorem kernel_final (m : (ℓ : Loc Cert.KernelIdeal.nD Cert.KernelIdeal.τ Cert.KernelIdeal.sig) → Buf (Elt Ideal) ℓ)
    (hpre : Cert.Pre_KernelIdeal m) (c : Dev Cert.KernelIdeal.nD) :
    ((Cert.KernelIdeal.Gen.dats m 0 c).arrAt 2 Cert.KernelIdeal.cfg0.N : Cert.KernelIdeal.S8x22x1024x512.Idx → EReal) = result m c := by
  obtain ⟨hfin, hL⟩ := Cert.Interp.Pre.pre_decode _ _ (hpre c)
  refine funext fun (j : Cert.KernelIdeal.S8x22x1024x512.Idx) => ?_
  obtain ⟨b, v, t, cc, rfl⟩ : ∃ (b : Fin 8) (v : Fin 22) (t : Fin 1024) (cc : Fin 512), j = ix4 b v t cc :=
    ⟨j 0, j 1, j 2, j 3, eq_ix4 j⟩
  refine (Cert.KernelIdeal.BlockVal.out_apply m c b v t cc).trans ?_
  have h1 := Cert.Interp.matAt_eq_sumAt (Cert.KernelIdeal.Gen.V m c Cert.KernelIdeal.main_v0) (Cert.KernelIdeal.Gen.V m c Cert.KernelIdeal.main_v47) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) b v t cc
    (fun s => Cert.KernelIdeal.HostVal.V_weight_apply m c b t s) (fun s => Cert.KernelIdeal.HostVal.V_flat_apply m c b s v cc)
  have hs := Cert.Interp.sumAt_eq_blendAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) hfin hL b v t cc
  have h2 : blendAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) b v t cc = result m c (ix4 b v t cc) := rfl
  exact h1.trans (hs.trans h2)

/-- Both idealized programs, from memories that agree on the arguments, end with the result array at the blend. -/
theorem algebraic : Cert.algebraic_KernelIdeal_ReferenceIdeal := by
  intro m ρ m' ρ' hpre hagree
  refine ⟨result m, ?_, ?_⟩
  · exact (θ_run Cert.KernelIdeal.defs _ _).mono (fun r h c => ⟨(h c).1.trans (kernel_final m hpre c), (h c).2.1, (h c).2.2⟩)
      (Cert.KernelIdeal.Value.run_blocks (F := Ideal) m ρ)
  · refine (θ_run Cert.ReferenceIdeal.defs _ _).mono (fun r h c => ⟨(h c).1.trans ?_, (h c).2.1, (h c).2.2⟩)
      (Cert.ReferenceIdeal.Hand.run_args (F := Ideal) m' ρ')
    refine funext fun (j : Cert.ReferenceIdeal.S8x22x1024x512.Idx) => ?_
    obtain ⟨b, v, t, cc, rfl⟩ : ∃ (b : Fin 8) (v : Fin 22) (t : Fin 1024) (cc : Fin 512), j = ix4 b v t cc :=
      ⟨j 0, j 1, j 2, j 3, eq_ix4 j⟩
    refine (Cert.ReferenceIdeal.HandRead.ref_apply (Idealize.ShloMosaic.StableHlo.launchContents m' c) b v t cc).trans ?_
    show blendAt (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) b v t cc = _
    rw [(hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
